-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S32x1024x1024 : Shape := ⟨3, ![32, 1024, 1024]⟩
abbrev S128x512 : Shape := ⟨2, ![128, 512]⟩
abbrev S512 : Shape := ⟨1, ![512]⟩
abbrev S3x512x512 : Shape := ⟨3, ![3, 512, 512]⟩
abbrev S3x512 : Shape := ⟨2, ![3, 512]⟩
abbrev S512x256 : Shape := ⟨2, ![512, 256]⟩
abbrev S256 : Shape := ⟨1, ![256]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S3x512 .f32) (main_arg8 : FVec F S3x512 .f32) (main_arg9 : FVec F S3x512 .f32) (main_arg10 : FVec F S512x256 .f32) (main_arg11 : FVec F S256 .f32) (main_v33 : IVec S_ 1) : IVec S_ 1 :=
  let main_v34 : FVec F S3x512 .f32 := Host.absf main_arg7
  let main_cst_12 : FVec F S_ .f32 := constant S_ .f32 0x7F800000#32
  let main_v35 : FVec F S3x512 .f32 := broadcastInDim S3x512 ![] bcast_S_S3x512 main_cst_12
  let main_v36 : IVec S3x512 1 := cmpf .olt main_v34 main_v35
  let main_c_13 : IVec S_ 1 := constantI S_ 1 1#1
  let main_v37 : IVec S_ 1 := (fun x v => Host.reduce IntOp.andi x v reducesTo_S3x512_S_d0_1 h_S_) main_v36 main_c_13
  let main_v38 : IVec S_ 1 := andi main_v33 main_v37
  let main_v39 : FVec F S3x512 .f32 := Host.absf main_arg8
  let main_cst_14 : FVec F S_ .f32 := constant S_ .f32 0x7F800000#32
  let main_v40 : FVec F S3x512 .f32 := broadcastInDim S3x512 ![] bcast_S_S3x512 main_cst_14
  let main_v41 : IVec S3x512 1 := cmpf .olt main_v39 main_v40
  let main_c_15 : IVec S_ 1 := constantI S_ 1 1#1
  let main_v42 : IVec S_ 1 := (fun x v => Host.reduce IntOp.andi x v reducesTo_S3x512_S_d0_1 h_S_) main_v41 main_c_15
  let main_v43 : IVec S_ 1 := andi main_v38 main_v42
  let main_v44 : FVec F S3x512 .f32 := Host.absf main_arg9
  let main_cst_16 : FVec F S_ .f32 := constant S_ .f32 0x7F800000#32
  let main_v45 : FVec F S3x512 .f32 := broadcastInDim S3x512 ![] bcast_S_S3x512 main_cst_16
  let main_v46 : IVec S3x512 1 := cmpf .olt main_v44 main_v45
  let main_c_17 : IVec S_ 1 := constantI S_ 1 1#1
  let main_v47 : IVec S_ 1 := (fun x v => Host.reduce IntOp.andi x v reducesTo_S3x512_S_d0_1 h_S_) main_v46 main_c_17
  let main_v48 : IVec S_ 1 := andi main_v43 main_v47
  let main_v49 : FVec F S512x256 .f32 := Host.absf main_arg10
  let main_cst_18 : FVec F S_ .f32 := constant S_ .f32 0x7F800000#32
  let main_v50 : FVec F S512x256 .f32 := broadcastInDim S512x256 ![] bcast_S_S512x256 main_cst_18
  fn_part3 (F := F) main_arg11 main_v48 main_v49 main_v50

def fn_part1 {F : FTy → Type} [FloatOps F] (main_arg4 : FVec F S3x512x512 .f32) (main_arg5 : FVec F S3x512 .f32) (main_arg6 : FVec F S3x512 .f32) (main_arg7 : FVec F S3x512 .f32) (main_arg8 : FVec F S3x512 .f32) (main_arg9 : FVec F S3x512 .f32) (main_arg10 : FVec F S512x256 .f32) (main_arg11 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S3x512x512 .f32 := Host.absf main_arg4
  let main_cst_6 : FVec F S_ .f32 := constant S_ .f32 0x7F800000#32
  let main_v20 : FVec F S3x512x512 .f32 := broadcastInDim S3x512x512 ![] bcast_S_S3x512x512 main_cst_6
  let main_v21 : IVec S3x512x512 1 := cmpf .olt main_v19 main_v20
  let main_c_7 : IVec S_ 1 := constantI S_ 1 1#1
  let main_v22 : IVec S_ 1 := (fun x v => Host.reduce IntOp.andi x v reducesTo_S3x512x512_S_d0_1_2 h_S_) main_v21 main_c_7
  let main_v23 : IVec S_ 1 := andi main_v18 main_v22
  let main_v24 : FVec F S3x512 .f32 := Host.absf main_arg5
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S3x512 .f32 := Host.absf main_arg6
  let main_cst_10 : FVec F S_ .f32 := constant S_ .f32 0x7F800000#32
  let main_v30 : FVec F S3x512 .f32 := broadcastInDim S3x512 ![] bcast_S_S3x512 main_cst_10
  let main_v31 : IVec S3x512 1 := cmpf .olt main_v29 main_v30
  let main_c_11 : IVec S_ 1 := constantI S_ 1 1#1
  let main_v32 : IVec S_ 1 := (fun x v => Host.reduce IntOp.andi x v reducesTo_S3x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x1024x128 .f32) (main_arg1 : FVec F S32x1024x1024 .f32) (main_arg2 : FVec F S128x512 .f32) (main_arg3 : FVec F S512 .f32) (main_arg4 : FVec F S3x512x512 .f32) (main_arg5 : FVec F S3x512 .f32) (main_arg6 : FVec F S3x512 .f32) (main_arg7 : FVec F S3x512 .f32) (main_arg8 : FVec F S3x512 .f32) (main_arg9 : FVec F S3x512 .f32) (main_arg10 : FVec F S512x256 .f32) (main_arg11 : FVec F S256 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_v13 main_v16
-- ==== Kernel.lean ====
abbrev S32x1024x128 : Shape := ⟨3, ![32, 1024, 128]⟩
abbrev S32x1024x1024 : Shape := ⟨3, ![32, 1024, 1024]⟩
abbrev S128x512 : Shape := ⟨2, ![128, 512]⟩
abbrev S512 : Shape := ⟨1, ![512]⟩
abbrev S3x512x512 : Shape := ⟨3, ![3, 512, 512]⟩
abbrev S3x512 : Shape := ⟨2, ![3, 512]⟩
abbrev S512x256 : Shape := ⟨2, ![512, 256]⟩
abbrev S256 : Shape := ⟨1, ![256]⟩
abbrev S1x512 : Shape := ⟨2, ![1, 512]⟩
abbrev S1x256 : Shape := ⟨2, ![1, 256]⟩
abbrev S32x1024x256 : Shape := ⟨3, ![32, 1024, 256]⟩
abbrev S1x1024x128 : Shape := ⟨3, ![1, 1024, 128]⟩
abbrev S1x1024x1024 : Shape := ⟨3, ![1, 1024, 1024]⟩
abbrev S1x1024x256 : Shape := ⟨3, ![1, 1024, 256]⟩
abbrev S1024x512 : Shape := ⟨2, ![1024, 512]⟩
abbrev S1024x128 : Shape := ⟨2, ![1024, 128]⟩
abbrev S1024x1024 : Shape := ⟨2, ![1024, 1024]⟩
abbrev S1x512x512 : Shape := ⟨3, ![1, 512, 512]⟩
abbrev S512x512 : Shape := ⟨2, ![512, 512]⟩
abbrev S1024x256 : Shape := ⟨2, ![1024, 256]⟩

abbrev nBuf : Space → Nat
  | .hbm => 15
  | .vmem => 17
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S128x512, .f32⟩
  | .hbm, ⟨3, _⟩ => ⟨S512, .f32⟩
  | .hbm, ⟨4, _⟩ => ⟨S3x512x512, .f32⟩
  | .hbm, ⟨5, _⟩ => ⟨S3x512, .f32⟩
  | .hbm, ⟨6, _⟩ => ⟨S3x512, .f32⟩
  | .hbm, ⟨7, _⟩ => ⟨S3x512, .f32⟩
  | .hbm, ⟨8, _⟩ => ⟨S3x512, .f32⟩
  | .hbm, ⟨9, _⟩ => ⟨S3x512, .f32⟩
  | .hbm, ⟨10, _⟩ => ⟨S512x256, .f32⟩
  | .hbm, ⟨11, _⟩ => ⟨S256, .f32⟩
  | .hbm, ⟨12, _⟩ => ⟨S1x512, .f32⟩
  | .hbm, ⟨13, _⟩ => ⟨S1x256, .f32⟩
  | .hbm, ⟨14, _⟩ => ⟨S32x1024x256, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1024, .f32⟩
  | .local _ .vmem, ⟨3, _⟩ => ⟨S1x1024x1024, .f32⟩
  | .local _ .vmem, ⟨4, _⟩ => ⟨S128x512, .f32⟩
  | .local _ .vmem, ⟨5, _⟩ => ⟨S1x512, .f32⟩
  | .local _ .vmem, ⟨6, _⟩ => ⟨S3x512x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S512x256, .f32⟩
  | .local _ .vmem, ⟨13, _⟩ => ⟨S1x256, .f32⟩
  | .local _ .vmem, ⟨14, _⟩ => ⟨S1x1024x256, .f32⟩
  | .local _ .vmem, ⟨15, _⟩ => ⟨S1x1024x256, .f32⟩
  | .local _ .vmem, ⟨16, _⟩ => ⟨S1024x512, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S512_S1x512 : S512.ShapeCasts S1x512
  shapeCasts_S256_S1x256 : S256.ShapeCasts S1x256
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S3x512x512_S1x512x512_0_0_0 : ∀ a, (![0, 0, 0] : Fin 3 → Nat) a + S1x512x512.size a ≤ S3x512x512.size a
  h_S1x512x512 : 0 < S1x512x512.numel
  shapeCasts_S1x512x512_S512x512 : S1x512x512.ShapeCasts S512x512
  inb_S3x512_S1x512_0_0 : ∀ a, (![0, 0] : Fin 2 → Nat) a + S1x512.size a ≤ S3x512.size a
  shapeCasts_S1x512_S512 : S1x512.ShapeCasts S512
  inb_S3x512x512_S1x512x512_1_0_0 : ∀ a, (![1, 0, 0] : Fin 3 → Nat) a + S1x512x512.size a ≤ S3x512x512.size a
  inb_S3x512_S1x512_1_0 : ∀ a, (![1, 0] : Fin 2 → Nat) a + S1x512.size a ≤ S3x512.size a
  inb_S3x512x512_S1x512x512_2_0_0 : ∀ a, (![2, 0, 0] : Fin 3 → Nat) a + S1x512x512.size a ≤ S3x512x512.size a
  inb_S3x512_S1x512_2_0 : ∀ a, (![2, 0] : Fin 2 → Nat) a + S1x512.size a ≤ S3x512.size a
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x1024x128.size a
  hwx0_0 : ∀ i : grid0.Coords, EltTy.bits .f32 = 32 ∨ (Rect.block (s := S32x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512x512.size a ≤ S3x512x512.size a
  hwx0_4 : ∀ i : grid0.Coords, EltTy.bits .f32 = 32 ∨ (Rect.block (s := S3x512x512) S3x512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x512.size a ≤ S3x512.size a
  hwx0_5 : ∀ i : grid0.Coords, EltTy.bits .f32 = 32 ∨ (Rect.block (s := S3x512) S3x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x512.size a ≤ S3x512.size a
  hwx0_6 : ∀ i : grid0.Coords, EltTy.bits .f32 = 32 ∨ (Rect.block (s := S3x512) S3x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x512.size a ≤ S3x512.size a
  hwx0_7 : ∀ i : grid0.Coords, EltTy.bits .f32 = 32 ∨ (Rect.block (s := S3x512) S3x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x512.size a ≤ S3x512.size a
  hwx0_8 : ∀ i : grid0.Coords, EltTy.bits .f32 = 32 ∨ (Rect.block (s := S3x512) S3x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x512.size a ≤ S3x512.size a
  hwx0_9 : ∀ i : grid0.Coords, EltTy.bits .f32 = 32 ∨ (Rect.block (s := S3x512) S3x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x256.size a
  hwx0_10 : ∀ i : grid0.Coords, EltTy.bits .f32 = 32 ∨ (Rect.block (s := S512x256) S512x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1024x256.size a ≤ S32x1024x256.size a
  hwx0_12 : ∀ i : grid0.Coords, EltTy.bits .f32 = 32 ∨ (Rect.block (s := S32x1024x256) S1x1024x256.size (cc0_transform_12 i) (hinb0_12 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S3x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v2) S1x1024x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S32x1024x1024 : Shape := ⟨3, ![32, 1024, 1024]⟩
abbrev S128x512 : Shape := ⟨2, ![128, 512]⟩
abbrev S512 : Shape := ⟨1, ![512]⟩
abbrev S3x512x512 : Shape := ⟨3, ![3, 512, 512]⟩
abbrev S3x512 : Shape := ⟨2, ![3, 512]⟩
abbrev S512x256 : Shape := ⟨2, ![512, 256]⟩
abbrev S256 : Shape := ⟨1, ![256]⟩
abbrev S32x1024x512 : Shape := ⟨3, ![32, 1024, 512]⟩
abbrev S1x1x512 : Shape := ⟨3, ![1, 1, 512]⟩
abbrev S1x512x512 : Shape := ⟨3, ![1, 512, 512]⟩
abbrev S512x512 : Shape := ⟨2, ![512, 512]⟩
abbrev S1x512 : Shape := ⟨2, ![1, 512]⟩
abbrev S_ : Shape := ⟨0, ![]⟩
abbrev S32x1024x256 : Shape := ⟨3, ![32, 1024, 256]⟩
abbrev S1x1x256 : Shape := ⟨3, ![1, 1, 256]⟩

abbrev nBuf : Space → Nat
  | .hbm => 128
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S128x512, .f32⟩
  | .hbm, ⟨3, _⟩ => ⟨S512, .f32⟩
  | .hbm, ⟨4, _⟩ => ⟨S3x512x512, .f32⟩
  | .hbm, ⟨5, _⟩ => ⟨S3x512, .f32⟩
  | .hbm, ⟨6, _⟩ => ⟨S3x512, .f32⟩
  | .hbm, ⟨7, _⟩ => ⟨S3x512, .f32⟩
  | .hbm, ⟨8, _⟩ => ⟨S3x512, .f32⟩
  | .hbm, ⟨9, _⟩ => ⟨S3x512, .f32⟩
  | .hbm, ⟨10, _⟩ => ⟨S512x256, .f32⟩
  | .hbm, ⟨11, _⟩ => ⟨S256, .f32⟩
  | .hbm, ⟨12, _⟩ => ⟨S32x1024x512, .f32⟩
  | .hbm, ⟨13, _⟩ => ⟨S1x1x512, .f32⟩
  | .hbm, ⟨14, _⟩ => ⟨S32x1024x512, .f32⟩
  | .hbm, ⟨15, _⟩ => ⟨S32x1024x512, .f32⟩
  | .hbm, ⟨16, _⟩ => ⟨S1x512x512, .f32⟩
  | .hbm, ⟨17, _⟩ => ⟨S512x512, .f32⟩
  | .hbm, ⟨18, _⟩ => ⟨S32x1024x512, .f32⟩
  | .hbm, ⟨19, _⟩ => ⟨S32x1024x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S32x1024x512, .f32⟩
  | .hbm, ⟨24, _⟩ => ⟨S32x1024x512, .f32⟩
  | .hbm, ⟨25, _⟩ => ⟨S_, .f32⟩
  | .hbm, ⟨26, _⟩ => ⟨S32x1024x512, .f32⟩
  | .hbm, ⟨27, _⟩ => ⟨S32x1024x512, .f32⟩
  | .hbm, ⟨28, _⟩ => ⟨S1x512, .f32⟩
  | .hbm, ⟨29, _⟩ => ⟨S512, .f32⟩
  | .hbm, ⟨30, _⟩ => ⟨S1x1x512, .f32⟩
  | .hbm, ⟨31, _⟩ => ⟨S32x1024x512, .f32⟩
  | .hbm, ⟨32, _⟩ => ⟨S32x1024x512, .f32⟩
  | .hbm, ⟨33, _⟩ => ⟨S1x512, .f32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S1x1x512, .f32⟩
  | .hbm, ⟨40, _⟩ => ⟨S32x1024x512, .f32⟩
  | .hbm, ⟨41, _⟩ => ⟨S32x1024x512, .f32⟩
  | .hbm, ⟨42, _⟩ => ⟨S1x512, .f32⟩
  | .hbm, ⟨43, _⟩ => ⟨S512, .f32⟩
  | .hbm, ⟨44, _⟩ => ⟨S1x1x512, .f32⟩
  | .hbm, ⟨45, _⟩ => ⟨S32x1024x512, .f32⟩
  | .hbm, ⟨46, _⟩ => ⟨S32x1024x512, .f32⟩
  | .hbm, ⟨47, _⟩ => ⟨S1x512, .f32⟩
  | .hbm, ⟨48, _⟩ => ⟨S512, .f32⟩
  | .hbm, ⟨49, _⟩ => ⟨S1x1x512, .f32⟩
  | .hbm, ⟨50, _⟩ => ⟨S32x1024x512, .f32⟩
  | .hbm, ⟨51, _⟩ => ⟨S32x1024x512, .f32⟩
  | .hbm, ⟨52, _⟩ => ⟨S1x512x512, .f32⟩
  | .hbm, ⟨53, _⟩ => ⟨S512x512, .f32⟩
  | .hbm, ⟨54, _⟩ => ⟨S32x1024x512, .f32⟩
  | .hbm, ⟨55, _⟩ => ⟨S32x1024x512, .f32⟩
  | .hbm, ⟨56, _⟩ => ⟨S1x512, .f32⟩
  | .hbm, ⟨57, _⟩ => ⟨S512, .f32⟩
  | .hbm, ⟨58, _⟩ => ⟨S1x1x512, .f32⟩
  | .hbm, ⟨59, _⟩ => ⟨S32x1024x512, .f32⟩
  | .hbm, ⟨60, _⟩ => ⟨S32x1024x512, .f32⟩
  | .hbm, ⟨61, _⟩ => ⟨S_, .f32⟩
  | .hbm, ⟨62, _⟩ => ⟨S32x1024x512, .f32⟩
  | .hbm, ⟨63, _⟩ => ⟨S32x1024x512, .f32⟩
  | .hbm, ⟨64, _⟩ => ⟨S1x512, .f32⟩
  | .hbm, ⟨65, _⟩ => ⟨S512, .f32⟩
  | .hbm, ⟨66, _⟩ => ⟨S1x1x512, .f32⟩
  | .hbm, ⟨67, _⟩ => ⟨S32x1024x512, .f32⟩
  | .hbm, ⟨68, _⟩ => ⟨S32x1024x512, .f32⟩
  | .hbm, ⟨69, _⟩ => ⟨S1x512, .f32⟩
  | .hbm, ⟨70, _⟩ => ⟨S512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S512, .f32⟩
  | .hbm, ⟨75, _⟩ => ⟨S1x1x512, .f32⟩
  | .hbm, ⟨76, _⟩ => ⟨S32x1024x512, .f32⟩
  | .hbm, ⟨77, _⟩ => ⟨S32x1024x512, .f32⟩
  | .hbm, ⟨78, _⟩ => ⟨S1x512, .f32⟩
  | .hbm, ⟨79, _⟩ => ⟨S512, .f32⟩
  | .hbm, ⟨80, _⟩ => ⟨S1x1x512, .f32⟩
  | .hbm, ⟨81, _⟩ => ⟨S32x1024x512, .f32⟩
  | .hbm, ⟨82, _⟩ => ⟨S32x1024x512, .f32⟩
  | .hbm, ⟨83, _⟩ => ⟨S1x512, .f32⟩
  | .hbm, ⟨84, _⟩ => ⟨S512, .f32⟩
  | .hbm, ⟨85, _⟩ => ⟨S1x1x512, .f32⟩
  | .hbm, ⟨86, _⟩ => ⟨S32x1024x512, .f32⟩
  | .hbm, ⟨87, _⟩ => ⟨S32x1024x512, .f32⟩
  | .hbm, ⟨88, _⟩ => ⟨S1x512x512, .f32⟩
  | .hbm, ⟨89, _⟩ => ⟨S512x512, .f32⟩
  | .hbm, ⟨90, _⟩ => ⟨S32x1024x512, .f32⟩
  | .hbm, ⟨91, _⟩ => ⟨S32x1024x512, .f32⟩
  | .hbm, ⟨92, _⟩ => ⟨S1x512, .f32⟩
  | .hbm, ⟨93, _⟩ => ⟨S512, .f32⟩
  | .hbm, ⟨94, _⟩ => ⟨S1x1x512, .f32⟩
  | .hbm, ⟨95, _⟩ => ⟨S32x1024x512, .f32⟩
  | .hbm, ⟨96, _⟩ => ⟨S32x1024x512, .f32⟩
  | .hbm, ⟨97, _⟩ => ⟨S_, .f32⟩
  | .hbm, ⟨98, _⟩ => ⟨S32x1024x512, .f32⟩
  | .hbm, ⟨99, _⟩ => ⟨S32x1024x512, .f32⟩
  | .hbm, ⟨100, _⟩ => ⟨S1x512, .f32⟩
  | .hbm, ⟨101, _⟩ => ⟨S512, .f32⟩
  | .hbm, ⟨102, _⟩ => ⟨S1x1x512, .f32⟩
  | .hbm, ⟨103, _⟩ => ⟨S32x1024x512, .f32⟩
  | .hbm, ⟨104, _⟩ => ⟨S32x1024x512, .f32⟩
  | .hbm, ⟨105, _⟩ => ⟨S1x512, .f32⟩
  | .hbm, ⟨106, _⟩ => ⟨S512, .f32⟩
  | .hbm, ⟨107, _⟩ => ⟨S_, .f32⟩
  | .hbm, ⟨108, _⟩ => ⟨S512, .f32⟩
  | .hbm, ⟨109, _⟩ => ⟨S512, .f32⟩
  | .hbm, ⟨110, _⟩ => ⟨S512, .f32⟩
  | .hbm, ⟨111, _⟩ => ⟨S1x1x512, .f32⟩
  | .hbm, ⟨112, _⟩ => ⟨S32x1024x512, .f32⟩
  | .hbm, ⟨113, _⟩ => ⟨S32x1024x512, .f32⟩
  | .hbm, ⟨114, _⟩ => ⟨S1x512, .f32⟩
  | .hbm, ⟨115, _⟩ => ⟨S512, .f32⟩
  | .hbm, ⟨116, _⟩ => ⟨S1x1x512, .f32⟩
  | .hbm, ⟨117, _⟩ => ⟨S32x1024x512, .f32⟩
  | .hbm, ⟨118, _⟩ => ⟨S32x1024x512, .f32⟩
  | .hbm, ⟨119, _⟩ => ⟨S1x512, .f32⟩
  | .hbm, ⟨120, _⟩ => ⟨S512, .f32⟩
  | .hbm, ⟨121, _⟩ => ⟨S1x1x512, .f32⟩
  | .hbm, ⟨122, _⟩ => ⟨S32x1024x512, .f32⟩
  | .hbm, ⟨123, _⟩ => ⟨S32x1024x512, .f32⟩
  | .hbm, ⟨124, _⟩ => ⟨S32x1024x256, .f32⟩
  | .hbm, ⟨125, _⟩ => ⟨S1x1x256, .f32⟩
  | .hbm, ⟨126, _⟩ => ⟨S32x1024x256, .f32⟩
  | .hbm, ⟨127, _⟩ => ⟨S32x1024x256, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_cst : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_cst : Ref sig .tc := ⟨.hbm, 61, rfl⟩
abbrev main_call1_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_0 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_call2_cst : Ref sig .tc := ⟨.hbm, 97, rfl⟩
abbrev main_call2_v0 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_1 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  bcast_S_S32x1024x512 : S_.BroadcastsInDim S32x1024x512 (![] : Fin 0 → Fin S32x1024x512.rank)
  bcast_S_S512 : S_.BroadcastsInDim S512 (![] : Fin 0 → Fin S512.rank)
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  dot_S32x1024x128_S128x512_S32x1024x512_2_0_01_1_n_n_wf : DotDims.WF S32x1024x128 S128x512 S32x1024x512 [2] [0] [0, 1] [1] [] []
  dot_S32x1024x512_S512x512_S32x1024x512_2_0_01_1_n_n_wf : DotDims.WF S32x1024x512 S512x512 S32x1024x512 [2] [0] [0, 1] [1] [] []
  dot_S32x1024x1024_S32x1024x512_S32x1024x512_2_1_1_2_0_0_wf : DotDims.WF S32x1024x1024 S32x1024x512 S32x1024x512 [2] [1] [1] [2] [0] [0]
  dot_S32x1024x512_S512x256_S32x1024x256_2_0_01_1_n_n_wf : DotDims.WF S32x1024x512 S512x256 S32x1024x256 [2] [0] [0, 1] [1] [] []

variable [Facts₀]

def dot_S32x1024x128_S128x512_S32x1024x512_2_0_01_1_n_n : DotDims S32x1024x128 S128x512 S32x1024x512 where
  lhsContracting := [2]
  rhsContracting := [0]
  lhsNonContracting := [0, 1]
  rhsNonContracting := [1]
  lhsBatch := []
  rhsBatch := []
  wf := dot_S32x1024x128_S128x512_S32x1024x512_2_0_01_1_n_n_wf
def dot_S32x1024x512_S512x512_S32x1024x512_2_0_01_1_n_n : DotDims S32x1024x512 S512x512 S32x1024x512 where
  lhsContracting := [2]
  rhsContracting := [0]
  lhsNonContracting := [0, 1]
  rhsNonContracting := [1]
  lhsBatch := []
  rhsBatch := []
  wf := dot_S32x1024x512_S512x512_S32x1024x512_2_0_01_1_n_n_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf
def dot_S32x1024x512_S512x256_S32x1024x256_2_0_01_1_n_n : DotDims S32x1024x512 S512x256 S32x1024x256 where
  lhsContracting := [2]
  rhsContracting := [0]
  lhsNonContracting := [0, 1]
  rhsNonContracting := [1]
  lhsBatch := []
  rhsBatch := []
  wf := dot_S32x1024x512_S512x256_S32x1024x256_2_0_01_1_n_n_wf

class Facts : Prop extends Facts₀ where

variable [Facts]
-- ==== Proof.Spec.lean ====
/-
  The mathematics both programs compute, for ONE graph of the batch, on plain matrices over the extended
  reals (entry `A a c` is row `a`, column `c`).

  A graph has `n` nodes; `Adj` is its n × n adjacency matrix and `H` its n × k matrix of node features.
  One graph-convolution layer is
      Y  = Adj · (H · W) + bias                     (every row of the product gets the same bias row)
      H' = ((max(Y, 0) − mean) · rsqrt(var + ε)) · γ + β
  channel by channel: the rectifier, then batch normalisation with running statistics. The network is an
  affine input projection, three such layers with their own parameters, and an affine output projection.

  Sums of products over a contracted coordinate are finite sums in the extended reals' commutative monoid,
  so they need no order and no finiteness; nothing below uses distributivity or cancellation.
-/
import Idealize.ShloMosaic.PureOps.Ideal
import Idealize.ShloMosaic.Lib.ValueIdx

noncomputable section

namespace Cert.Gcn

open Idealize.ShloMosaic

variable {n f k m o : Nat}

/-- The matrix product: entry (a, j) is the sum over the contracted coordinate of the entries' products. -/
def prod (A : Fin n → Fin k → EReal) (B : Fin k → Fin m → EReal) : Fin n → Fin m → EReal :=
  fun a j => ∑ c : Fin k, A a c * B c j

/-- A matrix with the same row vector added to every row. -/
def addRow (Y : Fin n → Fin m → EReal) (b : Fin m → EReal) : Fin n → Fin m → EReal :=
  fun a j => Y a j + b j

/-- The rectifier, entry by entry: the larger of the entry and `zero`. -/
def relu (zero : EReal) (Y : Fin n → Fin m → EReal) : Fin n → Fin m → EReal :=
  fun a j => max (Y a j) zero

/-- Batch normalisation with running statistics, one channel per column:
    `((y − mean) · rsqrt(var + ε)) · γ + β`, associated exactly so. -/
def bnorm (eps : EReal) (Y : Fin n → Fin m → EReal) (mean var gamma beta : Fin m → EReal) :
    Fin n → Fin m → EReal :=
  fun a j => ((Y a j - mean j) * Ideal.rsqrt (var j + eps)) * gamma j + beta j

/-- The graph convolution proper: the transformed features `H · W` aggregated over the graph, plus the bias row. -/
def conv (Adj : Fin n → Fin n → EReal) (H : Fin n → Fin k → EReal) (W : Fin k → Fin m → EReal)
    (bias : Fin m → EReal) : Fin n → Fin m → EReal :=
  addRow (prod Adj (prod H W)) bias

/-- One layer: convolve, rectify, normalise. -/
def layer (eps zero : EReal) (Adj : Fin n → Fin n → EReal) (H : Fin n → Fin k → EReal) (W : Fin k → Fin m → EReal)
    (bias mean var gamma beta : Fin m → EReal) : Fin n → Fin m → EReal :=
  bnorm eps (relu zero (conv Adj H W bias)) mean var gamma beta

/-- The whole network on one graph: input projection, three layers (parameters stacked along a leading
    axis of extent 3), output projection. -/
def net (eps zero : EReal) (X : Fin n → Fin f → EReal) (Adj : Fin n → Fin n → EReal)
    (Win : Fin f → Fin k → EReal) (bin : Fin k → EReal)
    (Wg : Fin 3 → Fin k → Fin k → EReal) (bg gamma beta mean var : Fin 3 → Fin k → EReal)
    (Wout : Fin k → Fin o → EReal) (bout : Fin o → EReal) : Fin n → Fin o → EReal :=
  addRow (prod
    (layer eps zero Adj
      (layer eps zero Adj
        (layer eps zero Adj (addRow (prod X Win) bin) (Wg 0) (bg 0) (mean 0) (var 0) (gamma 0) (beta 0))
        (Wg 1) (bg 1) (mean 1) (var 1) (gamma 1) (beta 1))
      (Wg 2) (bg 2) (mean 2) (var 2) (gamma 2) (beta 2))
    Wout) bout

/-! ## Arrays as matrices and rows

The programs hold their data as arrays indexed by coordinate tuples; these read an array of rank two or
three as the matrix, the row, or the matrix of a stack that the definitions above speak of. -/

open Idealize.ShloMosaic.ValueIdx

variable {L : Nat}

/-- A rank-2 array as a matrix. -/
def mat (X : (⟨2, ![n, m]⟩ : Shape).Idx → EReal) : Fin n → Fin m → EReal := fun a j => X (ix2 a j)

/-- Matrix `i` of a stack of matrices. -/
def matAt (X : (⟨3, ![L, n, m]⟩ : Shape).Idx → EReal) (i : Fin L) : Fin n → Fin m → EReal := fun a j => X (ix3 i a j)

/-- Row `i` of a matrix, as a vector. -/
def rowAt (P : (⟨2, ![L, m]⟩ : Shape).Idx → EReal) (i : Fin L) : Fin m → EReal := fun j => P (ix2 i j)

/-- A rank-1 array as a vector. -/
def vec (v : (⟨1, ![m]⟩ : Shape).Idx → EReal) : Fin m → EReal := fun j => v (ix1 j)

end Cert.Gcn

end
-- ==== Proof.LibStackOps.lean ====
/-
  General facts about array operations read at an index, at the ideal values: the products and the
  layout operations that a network written over a stack of graphs (a leading batch axis) and the same
  network written one graph at a time have in common.

  * a stack of matrices [G, m, k] times ONE matrix [k, n] (`dot_general` contracting the stack's last
    axis with the matrix's first, no batch axis): entry (g, a, b) is `∑ c, A (g, a, c) · B (c, b)`;
  * the plain product of two matrices accumulated into a zero splat: entry (a, b) is `∑ c, A (a, c) · B (c, b)`;
  * a vector of n entries laid along the last axis of [G, m, n] (through a [1, 1, n] array);
  * row `i` of an [L, n] matrix cut out as a one-row matrix and reshaped to a vector;
  * matrix `i` of a stack [L, k, n] cut out and reshaped to a matrix;
  * a vector laid along every row of an [m, n] matrix through its one-row reshape;
  * a buffer written whole several times and then read whole holds the LAST value written;
  * a load of row `i` of an [L, n] buffer, and of matrix `i` of an [L, k, n] buffer, read at an index.
-/
import Idealize.ShloMosaic.Lib.StackMember
import Idealize.ShloMosaic.Lib.ValueLayout
import Idealize.ShloMosaic.Lib.Pipeline.Value
import Idealize.ShloMosaic.PureOps.Ideal.Laws

noncomputable section

namespace Cert.LibStackOps

open Idealize.ShloMosaic Idealize.ShloMosaic.ValueIdx

/-! ## Products -/

/-- A stack of matrices times one matrix, read at an index: the sum over the contracted coordinate of
    the products of the stack member's row entries with the matrix's column entries. -/
theorem dotGeneral_stack_plain_apply {G m k n : Nat} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

/-- The plain product of an m × k by a k × n matrix accumulated into the zero splat, read at an index:
    the sum over the contracted coordinate of the entries' products, with no accumulator term left. -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-! ## Layout -/

section Layout
variable {α : Type}

/-- A vector of `n` entries laid along the last axis of a [G, m, n] array (first as a [1, 1, n] array,
    then copied along the two leading axes), read at (g, a, b), is the vector's entry `b`. -/
theorem broadcastInDim_lastAxis_apply {G m n : Nat} (v : (⟨1, ![n]⟩ : Shape).Idx → α)
    (h1 : (⟨1, ![n]⟩ : Shape).BroadcastsInDim ⟨3, ![1, 1, n]⟩ ![2])
    (h3 : (⟨3, ![1, 1, n]⟩ : Shape).BroadcastsInDim ⟨3, ![G, m, n]⟩ ![0, 1, 2])
    (g : Fin G) (a : Fin m) (b : Fin n) :
    broadcastInDim ⟨3, ![G, m, n]⟩ ![0, 1, 2] h3 (broadcastInDim ⟨3, ![1, 1, n]⟩ ![2] h1 v) (ix3 g a b) = v (ix1 b) := by
  have hb : b.val < n := b.isLt
  have e3 := broadcastInDim_apply ![0, 1, 2] h3 (broadcastInDim ⟨3, ![1, 1, n]⟩ ![2] h1 v) (ix3 g a b)
    (ix3 (0 : Fin 1) (0 : Fin 1) b) (by
      intro c
      match c with
      | ⟨0, _⟩ => rfl
      | ⟨1, _⟩ => rfl
      | ⟨2, _⟩ =>
        show b.val = if n = 1 then 0 else b.val
        split
        · omega
        · rfl)
  have e1 := broadcastInDim_apply ![2] h1 v (ix3 (0 : Fin 1) (0 : Fin 1) b) (ix1 b) (by
      intro c
      match c with
      | ⟨0, _⟩ =>
        show b.val = if n = 1 then 0 else b.val
        split
        · omega
        · rfl)
  exact e3.trans e1

/-- Row `i` of an [L, n] matrix, cut out as a one-row matrix and reshaped to a vector, read at `b`,
    is the matrix at (i, b). -/
theorem row_apply {L n : Nat} (i : Fin L) (P : (⟨2, ![L, n]⟩ : Shape).Idx → α)
    (hs : (⟨2, ![L, n]⟩ : Shape).Slices ![i.val, 0] ⟨2, ![1, n]⟩)
    (hc : (⟨2, ![1, n]⟩ : Shape).ShapeCasts ⟨1, ![n]⟩) (b : Fin n) :
    shapeCast ⟨1, ![n]⟩ (extractStridedSlice ⟨2, ![1, n]⟩ ![i.val, 0] P hs) hc (ix1 b) = P (ix2 i b) := by
  rw [shapeCast_1a_a_apply]
  exact slice2_axis0_apply i.val P hs (0 : Fin 1) b i (by simp)

/-- Matrix `i` of a stack [L, k, n], cut out as a one-member stack and reshaped to a matrix, read at
    (d, b), is the stack at (i, d, b). -/
theorem member_apply {L k n : Nat} (i : Fin L) (W : (⟨3, ![L, k, n]⟩ : Shape).Idx → α)
    (hs : (⟨3, ![L, k, n]⟩ : Shape).Slices ![i.val, 0, 0] ⟨3, ![1, k, n]⟩)
    (hc : (⟨3, ![1, k, n]⟩ : Shape).ShapeCasts ⟨2, ![k, n]⟩) (d : Fin k) (b : Fin n) :
    shapeCast ⟨2, ![k, n]⟩ (extractStridedSlice ⟨3, ![1, k, n]⟩ ![i.val, 0, 0] W hs) hc (ix2 d b) = W (ix3 i d b) := by
  rw [shapeCast_1ab_ab_apply]
  exact extractStridedSlice_apply _ _ hs (ix3 (0 : Fin 1) d b) (ix3 i d b) (fun ax => by
    match ax with
    | ⟨0, _⟩ => show i.val = i.val + 0; omega
    | ⟨1, _⟩ => show d.val = 0 + d.val; omega
    | ⟨2, _⟩ => show b.val = 0 + b.val; omega)

/-- A one-row matrix, reshaped to a vector and back to one row and copied down `m` rows, read at (a, b),
    is the row's entry `b`. -/
theorem rowDown_apply {m n : Nat} (v : (⟨2, ![1, n]⟩ : Shape).Idx → α)
    (h1 : (⟨2, ![1, n]⟩ : Shape).ShapeCasts ⟨1, ![n]⟩) (h2 : (⟨1, ![n]⟩ : Shape).ShapeCasts ⟨2, ![1, n]⟩)
    (hb : (⟨2, ![1, n]⟩ : Shape).Broadcasts ⟨2, ![m, n]⟩) (a : Fin m) (b : Fin n) :
    broadcastTo ⟨2, ![m, n]⟩ (shapeCast ⟨2, ![1, n]⟩ (shapeCast ⟨1, ![n]⟩ v h1) h2) hb (ix2 a b) = v (ix2 (0 : Fin 1) b) := by
  rw [broadcastTo_1b_ab_apply, shapeCast_a_1a_apply, shapeCast_1a_a_apply]

end Layout

/-! ## Buffers: what a load reads -/

section Loads
variable {Val : EltTy → Type} {e : EltTy}

/-- A buffer stored whole several times and then loaded whole: the load reads the payload of the LAST
    store, whatever the earlier stores wrote (the list has the last store first). -/
theorem readCov_cons_unit_zero [∀ e, Nonempty (Val e)] {S : Shape} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- A load of row `i` of an [L, n] buffer (a one-row rectangle at offsets (i, 0)), read at (0, j), is the
    buffer at (i, j). -/
theorem ld_row_apply {L n : Nat} (X : (⟨2, ![L, n]⟩ : Shape).Idx → Val e) (i : Fin L)
    (inb : ∀ a, (![i.val, 0] : Fin 2 → Nat) a + (![1, n] : Fin 2 → Nat) a ≤ (⟨2, ![L, n]⟩ : Shape).size a) (j : Fin n) :
    View.ld X (Rect.unit ![i.val, 0] ![1, n] inb) (ix2 (0 : Fin 1) j) = X (ix2 i j) := by
  show X _ = X _
  refine congrArg X (funext fun a => Fin.ext ?_)
  match a with
  | ⟨0, _⟩ => show i.val + 1 * 0 = i.val; omega
  | ⟨1, _⟩ => show 0 + 1 * j.val = j.val; omega

/-- A load of matrix `i` of an [L, k, n] buffer (a one-member rectangle at offsets (i, 0, 0)), read at
    (0, d, j), is the buffer at (i, d, j). -/
theorem ld_member_apply {L k n : Nat} (X : (⟨3, ![L, k, n]⟩ : Shape).Idx → Val e) (i : Fin L)
    (inb : ∀ a, (![i.val, 0, 0] : Fin 3 → Nat) a + (![1, k, n] : Fin 3 → Nat) a ≤ (⟨3, ![L, k, n]⟩ : Shape).size a)
    (d : Fin k) (j : Fin n) :
    View.ld X (Rect.unit ![i.val, 0, 0] ![1, k, n] inb) (ix3 (0 : Fin 1) d j) = X (ix3 i d j) := by
  show X _ = X _
  refine congrArg X (funext fun a => Fin.ext ?_)
  match a with
  | ⟨0, _⟩ => show i.val + 1 * 0 = i.val; omega
  | ⟨1, _⟩ => show 0 + 1 * d.val = d.val; omega
  | ⟨2, _⟩ => show 0 + 1 * j.val = j.val; omega

end Loads

end Cert.LibStackOps

end
-- ==== Proof.KernelPay.lean ====
/-
  The arithmetic of the kernel's body, stage by stage, at the ideal values.

  The body works on ONE graph: its feature block, its adjacency block, and the whole parameter arrays.
  It keeps the running node features in a scratch buffer, so its arithmetic is cut at each store of that
  buffer into pieces, each a function of the values loaded before it. Read as matrices (entry (a, j) is
  node a, channel j) each piece is one of the network's stages:

    the input projection           X · W_in + b_in
    a convolution                  Adj · (H · W) + bias             (then, in two of the three pieces, the rectifier)
    a normalisation                ((R − mean) · rsqrt(var + ε)) · γ + β
    the output projection          H · W_out + b_out

  A change of float format is the identity at the ideal values and a product accumulated into a zero splat is
  the plain sum of products, so every piece IS its stage, entry by entry; nothing here needs finiteness.
-/
import proofs.«145404_j5059471475382_1_alg».proof.Proof.Gen.KernelIdeal.Skeleton
import proofs.«145404_j5059471475382_1_alg».proof.Proof.Spec
import proofs.«145404_j5059471475382_1_alg».proof.Proof.LibStackOps

noncomputable section

namespace Cert.KernelIdeal.Body

open Idealize.ShloMosaic Idealize.ShloMosaic.ValueIdx Cert.KernelIdeal Cert.KernelIdeal.Gen Cert.Gcn Cert.LibStackOps

/-- The normalisation's ε, the single-precision word nearest to 1e-5, and the rectifier's zero, as the
    extended reals their words denote. Both programs carry the same words, so they are never evaluated. -/
abbrev EPS : EReal := Ideal.ofBits .f32 0x3727C5AC#32
abbrev ZERO : EReal := Ideal.ofBits .f32 0x00000000#32

/-! ## Loads of one row, or one matrix, of a stacked parameter -/

/-- Row `i` of a [3, 512] parameter, loaded as a one-row block, is that row. -/
theorem rowAt_ld (P : Vec Ideal S3x512 .f32) (i : Fin 3)
    (inb : ∀ a, (![i.val, 0] : Fin 2 → Nat) a + (![1, 512] : Fin 2 → Nat) a ≤ S3x512.size a) :
    rowAt (View.ld P (Rect.unit ![i.val, 0] ![1, 512] inb)) 0 = rowAt P i :=
  funext fun j => ld_row_apply P i inb j

/-- Matrix `i` of the [3, 512, 512] weights, loaded as a one-matrix block, is that matrix. -/
theorem matAt_ld (W : Vec Ideal S3x512x512 .f32) (i : Fin 3)
    (inb : ∀ a, (![i.val, 0, 0] : Fin 3 → Nat) a + (![1, 512, 512] : Fin 3 → Nat) a ≤ S3x512x512.size a) :
    matAt (View.ld W (Rect.unit ![i.val, 0, 0] ![1, 512, 512] inb)) 0 = matAt W i :=
  funext fun d => funext fun j => ld_member_apply W i inb d j

/-- The same at each of the three literal offsets the body loads through. -/
theorem rowAt_ld0 (P : Vec Ideal S3x512 .f32) (inb : ∀ a, (![0, 0] : Fin 2 → Nat) a + (![1, 512] : Fin 2 → Nat) a ≤ S3x512.size a) :
    rowAt (View.ld P (Rect.unit ![0, 0] ![1, 512] inb)) 0 = rowAt P 0 := rowAt_ld P 0 inb
theorem rowAt_ld1 (P : Vec Ideal S3x512 .f32) (inb : ∀ a, (![1, 0] : Fin 2 → Nat) a + (![1, 512] : Fin 2 → Nat) a ≤ S3x512.size a) :
    rowAt (View.ld P (Rect.unit ![1, 0] ![1, 512] inb)) 0 = rowAt P 1 := rowAt_ld P 1 inb
theorem rowAt_ld2 (P : Vec Ideal S3x512 .f32) (inb : ∀ a, (![2, 0] : Fin 2 → Nat) a + (![1, 512] : Fin 2 → Nat) a ≤ S3x512.size a) :
    rowAt (View.ld P (Rect.unit ![2, 0] ![1, 512] inb)) 0 = rowAt P 2 := rowAt_ld P 2 inb
theorem matAt_ld0 (W : Vec Ideal S3x512x512 .f32) (inb : ∀ a, (![0, 0, 0] : Fin 3 → Nat) a + (![1, 512, 512] : Fin 3 → Nat) a ≤ S3x512x512.size a) :
    matAt (View.ld W (Rect.unit ![0, 0, 0] ![1, 512, 512] inb)) 0 = matAt W 0 := matAt_ld W 0 inb
theorem matAt_ld1 (W : Vec Ideal S3x512x512 .f32) (inb : ∀ a, (![1, 0, 0] : Fin 3 → Nat) a + (![1, 512, 512] : Fin 3 → Nat) a ≤ S3x512x512.size a) :
    matAt (View.ld W (Rect.unit ![1, 0, 0] ![1, 512, 512] inb)) 0 = matAt W 1 := matAt_ld W 1 inb
theorem matAt_ld2 (W : Vec Ideal S3x512x512 .f32) (inb : ∀ a, (![2, 0, 0] : Fin 3 → Nat) a + (![1, 512, 512] : Fin 3 → Nat) a ≤ S3x512x512.size a) :
    matAt (View.ld W (Rect.unit ![2, 0, 0] ![1, 512, 512] inb)) 0 = matAt W 2 := matAt_ld W 2 inb

/-! ## The pieces -/

/-- The input projection: the graph's features times the input weights, plus the input bias row. -/
theorem pay2_apply (v0 : Vec Ideal S1x1024x128 .f32) (v3 : Vec Ideal S128x512 .f32) (v6 : Vec Ideal S1x512 .f32)
    (a : Fin 1024) (j : Fin 512) :
    k0_pay2 v0 v3 v6 (ix2 a j) = addRow (prod (matAt v0 0) (mat v3)) (rowAt v6 0) a j := by
  unfold k0_pay2
  refine (congrFun (shapeCast_self _ _) _).trans ?_
  refine congrArg₂ (· + ·) ?_ ?_
  · refine (matmul_plain_zero_apply dot_S1024x128_S128x512_S1024x512_1_0_0_1_n_n_wf none _ _ a j).trans ?_
    refine Finset.sum_congr rfl fun c _ => ?_
    exact congrArg (· * _) (shapeCast_1ab_ab_apply v0 _ a c)
  · refine (broadcastTo_1b_ab_apply _ _ a j).trans ?_
    exact congrFun (shapeCast_self _ _) _

theorem pay2_eq (v0 : Vec Ideal S1x1024x128 .f32) (v3 : Vec Ideal S128x512 .f32) (v6 : Vec Ideal S1x512 .f32) :
    mat (k0_pay2 v0 v3 v6) = addRow (prod (matAt v0 0) (mat v3)) (rowAt v6 0) :=
  funext fun a => funext fun j => pay2_apply v0 v3 v6 a j

/-- The graph's adjacency block as a matrix (its change of format is the identity). -/
theorem pay3_eq (v13 : Vec Ideal S1x1024x1024 .f32) : mat (k0_pay3 v13) = matAt v13 0 :=
  funext fun a => funext fun c => shapeCast_1ab_ab_apply v13 _ a c

/-- A convolution as the body spells it: the adjacency matrix times the product of the features with the
    layer's weights (both products into zero splats), plus the layer's bias row copied down the nodes. -/
theorem conv_apply (A : FVec Ideal S1024x1024 .bf16) (H : Vec Ideal S1024x512 .f32) (W3 : Vec Ideal S1x512x512 .f32)
    (bias : Vec Ideal S1x512 .f32) (a : Fin 1024) (j : Fin 512) :
    addf (matmul dot_S1024x1024_S1024x512_S1024x512_1_0_0_1_n_n none A
            (truncf .bf16 (matmul dot_S1024x512_S512x512_S1024x512_1_0_0_1_n_n none (truncf .bf16 H bitsLt_bf16_f32)
              (truncf .bf16 (shapeCast S512x512 W3 shapeCasts_S1x512x512_S512x512) bitsLt_bf16_f32)
              (constant S1024x512 .f32 0x00000000#32)) bitsLt_bf16_f32)
            (constant S1024x512 .f32 0x00000000#32))
         (broadcastTo S1024x512 (shapeCast S1x512 (shapeCast S512 bias shapeCasts_S1x512_S512) shapeCasts_S512_S1x512)
            broadcasts_S1x512_S1024x512) (ix2 a j)
      = conv (mat A) (mat H) (matAt W3 0) (rowAt bias 0) a j := by
  refine congrArg₂ (· + ·) ?_ ?_
  · refine (matmul_plain_zero_apply dot_S1024x1024_S1024x512_S1024x512_1_0_0_1_n_n_wf none _ _ a j).trans ?_
    refine Finset.sum_congr rfl fun c _ => ?_
    refine congrArg (A (ix2 a c) * ·) ?_
    refine (matmul_plain_zero_apply dot_S1024x512_S512x512_S1024x512_1_0_0_1_n_n_wf none _ _ c j).trans ?_
    refine Finset.sum_congr rfl fun d _ => ?_
    exact congrArg (H (ix2 c d) * ·) (shapeCast_1ab_ab_apply W3 _ d j)
  · exact rowDown_apply bias _ _ _ a j

/-- The first layer's convolution and rectifier. -/
theorem pay4_eq (v13 : Vec Ideal S1x1024x1024 .f32) (v16 : Vec Ideal S1024x512 .f32) (v18 : Vec Ideal S1x512x512 .f32)
    (v24 : Vec Ideal S1x512 .f32) :
    mat (k0_pay4 v13 v16 v18 v24) = relu ZERO (conv (matAt v13 0) (mat v16) (matAt v18 0) (rowAt v24 0)) := by
  funext a j
  show k0_pay4 v13 v16 v18 v24 (ix2 a j) = _
  unfold k0_pay4
  refine congrArg₂ max ?_ rfl
  refine (conv_apply (k0_pay3 v13) v16 v18 v24 a j).trans ?_
  rw [pay3_eq]

/-- A later layer's convolution and rectifier (the adjacency matrix already loaded). -/
theorem pay7_eq (v15 : FVec Ideal S1024x1024 .bf16) (v57 : Vec Ideal S1024x512 .f32) (v59 : Vec Ideal S1x512x512 .f32)
    (v65 : Vec Ideal S1x512 .f32) :
    mat (k0_pay7 v15 v57 v59 v65) = relu ZERO (conv (mat v15) (mat v57) (matAt v59 0) (rowAt v65 0)) := by
  funext a j
  show k0_pay7 v15 v57 v59 v65 (ix2 a j) = _
  unfold k0_pay7
  exact congrArg₂ max (conv_apply v15 v57 v59 v65 a j) rfl

/-- The last layer's convolution, before its rectifier. -/
theorem pay9_eq (v15 : FVec Ideal S1024x1024 .bf16) (v98 : Vec Ideal S1024x512 .f32) (v100 : Vec Ideal S1x512x512 .f32)
    (v106 : Vec Ideal S1x512 .f32) :
    mat (k0_pay9 v15 v98 v100 v106) = conv (mat v15) (mat v98) (matAt v100 0) (rowAt v106 0) := by
  funext a j
  show k0_pay9 v15 v98 v100 v106 (ix2 a j) = _
  unfold k0_pay9
  exact conv_apply v15 v98 v100 v106 a j

/-- A normalisation as the body spells it: the running mean row subtracted, the product with the row
    `rsqrt(var + ε)`, then with the scale row, then the shift row added, each row copied down the nodes. -/
theorem bnorm_apply (Y : FVec Ideal S1024x512 .f32) (var : FVec Ideal S512 .f32) (mean gamma beta : Vec Ideal S1x512 .f32)
    (a : Fin 1024) (j : Fin 512) :
    shapeCast S1024x512
      (addf (mulf (mulf
        (subf Y (broadcastTo S1024x512 (shapeCast S1x512 (shapeCast S512 mean shapeCasts_S1x512_S512) shapeCasts_S512_S1x512) broadcasts_S1x512_S1024x512))
        (broadcastTo S1024x512 (shapeCast S1x512 (rsqrt (addf var (broadcast S512 (Scalar.ofBits .f32 0x3727C5AC#32)))) shapeCasts_S512_S1x512) broadcasts_S1x512_S1024x512))
        (broadcastTo S1024x512 (shapeCast S1x512 (shapeCast S512 gamma shapeCasts_S1x512_S512) shapeCasts_S512_S1x512) broadcasts_S1x512_S1024x512))
        (broadcastTo S1024x512 (shapeCast S1x512 (shapeCast S512 beta shapeCasts_S1x512_S512) shapeCasts_S512_S1x512) broadcasts_S1x512_S1024x512))
      shapeCasts_S1024x512_S1024x512 (ix2 a j)
      = bnorm EPS (mat Y) (rowAt mean 0) (vec var) (rowAt gamma 0) (rowAt beta 0) a j := by
  refine (congrFun (shapeCast_self _ _) _).trans ?_
  refine congrArg₂ (· + ·) (congrArg₂ (· * ·) (congrArg₂ (· * ·) (congrArg₂ (· - ·) rfl ?_) ?_) ?_) ?_
  · exact rowDown_apply mean _ _ _ a j
  · refine (broadcastTo_1b_ab_apply _ _ a j).trans ?_
    exact (shapeCast_a_1a_apply _ _ 0 j).trans rfl
  · exact rowDown_apply gamma _ _ _ a j
  · exact rowDown_apply beta _ _ _ a j

/-- A one-row block reshaped to a vector is that row. -/
theorem vec_shapeCast_row (v : Vec Ideal S1x512 .f32) : vec (shapeCast S512 v shapeCasts_S1x512_S512) = rowAt v 0 :=
  funext fun j => shapeCast_1a_a_apply v _ j

theorem pay5_eq (v31 : Vec Ideal S1x512 .f32) : vec (k0_pay5 v31) = rowAt v31 0 := vec_shapeCast_row v31

/-- The first layer's normalisation (its variance row already reshaped). -/
theorem pay6_eq (v30 : FVec Ideal S1024x512 .f32) (v32 : FVec Ideal S512 .f32) (v33 v44 v49 : Vec Ideal S1x512 .f32) :
    mat (k0_pay6 v30 v32 v33 v44 v49) = bnorm EPS (mat v30) (rowAt v33 0) (vec v32) (rowAt v44 0) (rowAt v49 0) := by
  funext a j
  show k0_pay6 v30 v32 v33 v44 v49 (ix2 a j) = _
  unfold k0_pay6
  exact bnorm_apply v30 v32 v33 v44 v49 a j

/-- The second layer's normalisation. -/
theorem pay8_eq (v71 : FVec Ideal S1024x512 .f32) (v72 v74 v85 v90 : Vec Ideal S1x512 .f32) :
    mat (k0_pay8 v71 v72 v74 v85 v90) = bnorm EPS (mat v71) (rowAt v74 0) (rowAt v72 0) (rowAt v85 0) (rowAt v90 0) := by
  funext a j
  show k0_pay8 v71 v72 v74 v85 v90 (ix2 a j) = _
  unfold k0_pay8
  refine (bnorm_apply v71 (shapeCast S512 v72 shapeCasts_S1x512_S512) v74 v85 v90 a j).trans ?_
  rw [vec_shapeCast_row]

/-- The third layer's rectifier and normalisation. -/
theorem pay10_eq (v110 : FVec Ideal S1024x512 .f32) (z : Ideal .f32) (v113 v115 v126 v131 : Vec Ideal S1x512 .f32) :
    mat (k0_pay10 v110 z v113 v115 v126 v131)
      = bnorm EPS (relu z (mat v110)) (rowAt v115 0) (rowAt v113 0) (rowAt v126 0) (rowAt v131 0) := by
  funext a j
  show k0_pay10 v110 z v113 v115 v126 v131 (ix2 a j) = _
  unfold k0_pay10
  refine (bnorm_apply (maximumf v110 (broadcast S1024x512 z)) (shapeCast S512 v113 shapeCasts_S1x512_S512) v115 v126 v131 a j).trans ?_
  rw [vec_shapeCast_row]
  rfl

/-- The output projection: the last layer's features times the output weights, plus the output bias row. -/
theorem pay11_eq (v139 : Vec Ideal S1024x512 .f32) (v141 : Vec Ideal S512x256 .f32) (v144 : Vec Ideal S1x256 .f32) :
    mat (k0_pay11 v139 v141 v144) = addRow (prod (mat v139) (mat v141)) (rowAt v144 0) := by
  funext a j
  show k0_pay11 v139 v141 v144 (ix2 a j) = _
  unfold k0_pay11
  refine congrArg₂ (· + ·) ?_ ?_
  · exact matmul_plain_zero_apply dot_S1024x512_S512x256_S1024x256_1_0_0_1_n_n_wf none _ _ a j
  · refine (broadcastTo_1b_ab_apply _ _ a j).trans ?_
    exact congrFun (shapeCast_self _ _) _

/-- The stored block is the output matrix with a leading unit axis. -/
theorem pay1_apply (v147 : FVec Ideal S1024x256 .f32) (a : Fin 1024) (j : Fin 256) :
    k0_pay1 v147 (ix3 (0 : Fin 1) a j) = mat v147 a j :=
  shapeCast_ab_1ab_apply v147 _ 0 a j

end Cert.KernelIdeal.Body

end
-- ==== Proof.KernelBody.lean ====
/-
  What the kernel's body leaves in its output block: the network of the blocks it was called with.

  The body stores the running node features to a scratch buffer four times and loads them back after each
  store; every such load reads what the store just before it wrote, because each store covers the whole
  buffer. So the body's one store to the output block holds the composition of its arithmetic pieces, and
  by the pieces' readings (the input projection, three times a convolution with rectifier and a
  normalisation, the output projection) that composition is the network on the graph's blocks.
-/
import proofs.«145404_j5059471475382_1_alg».proof.Proof.Gen.KernelIdeal.Frame
import proofs.«145404_j5059471475382_1_alg».proof.Proof.KernelPay

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Gcn Cert.LibStackOps

theorem hz2 : (![0, 0] : Fin 2 → Nat) = fun _ => 0 := funext fun a => by fin_cases a <;> rfl
theorem hz3 : (![0, 0, 0] : Fin 3 → Nat) = fun _ => 0 := funext fun a => by fin_cases a <;> rfl

/-- The output block the body leaves, read at node `a` and channel `j`, is the network on the blocks the body
    was called with: the graph's features and adjacency (blocks with a leading unit axis), the parameter
    arrays whole, the two bias vectors as one-row blocks. -/
theorem out_apply (c : Dev nD) (i : grid0.Coords) (arg1 : Memref sig .tc .vmem S1x1024x128 .f32) (harg1 : arg1.IsWhole) (arg2 : Memref sig .tc .vmem S1x1024x1024 .f32) (harg2 : arg2.IsWhole) (arg3 : Memref sig .tc .vmem S128x512 .f32) (harg3 : arg3.IsWhole) (arg4 : Memref sig .tc .vmem S1x512 .f32) (harg4 : arg4.IsWhole) (arg5 : Memref sig .tc .vmem S3x512x512 .f32) (harg5 : arg5.IsWhole) (arg6 : Memref sig .tc .vmem S3x512 .f32) (harg6 : arg6.IsWhole) (arg7 : Memref sig .tc .vmem S3x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S3x512 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S1x1024x256 .f32) (harg13 : arg13.IsWhole) (arg14 : Memref sig .tc .vmem S1024x512 .f32) (harg14 : arg14.IsWhole) (x0 : Vec Ideal S1x1024x128 .f32) (x1 : Vec Ideal S1x1024x1024 .f32) (x2 : Vec Ideal S128x512 .f32) (x3 : Vec Ideal S1x512 .f32) (x4 : Vec Ideal S3x512x512 .f32) (x5 : Vec Ideal S3x512 .f32) (x6 : Vec Ideal S3x512 .f32) (x7 : Vec Ideal S3x512 .f32) (x8 : Vec Ideal S3x512 .f32) (x9 : Vec Ideal S3x512 .f32) (x10 : Vec Ideal S512x256 .f32) (x11 : Vec Ideal S1x256 .f32) (a : Fin 1024) (j : Fin 256) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 (ix3 (0 : Fin 1) a j)
      = net EPS ZERO (matAt x0 0) (matAt x1 0) (mat x2) (rowAt x3 0) (matAt x4) (rowAt x5) (rowAt x6) (rowAt x7)
          (rowAt x8) (rowAt x9) (mat x10) (rowAt x11 0) a j := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11)]
  unfold kernelRun0_A
  dsimp only
  sl_unfold_words
  rw [View.canon_unit_zero hz3]
  simp only [View.readAt_eq_ld, Memref.IsWhole.read_unread, readCov_cons_unit_zero (S := S1024x512) _ hz2,
    View.ld_unit_zero (S := S1x1024x128) hz3, View.ld_unit_zero (S := S1x1024x1024) hz3,
    View.ld_unit_zero (S := S128x512) hz2, View.ld_unit_zero (S := S1x512) hz2, View.ld_unit_zero (S := S512x256) hz2,
    View.ld_unit_zero (S := S1x256) hz2]
  rw [pay1_apply]
  simp only [pay11_eq, pay10_eq, pay9_eq, pay8_eq, pay7_eq, pay6_eq, pay5_eq, pay4_eq, pay3_eq, pay2_eq,
    rowAt_ld0, rowAt_ld1, rowAt_ld2, matAt_ld0, matAt_ld1, matAt_ld2]
  rfl

end Cert.KernelIdeal.Body

end
-- ==== Proof.KernelFinal.lean ====
/-
  From the kernel's blocks to its output array.

  The kernel runs once per graph of the batch: grid point `t` is handed graph `t`'s feature block and
  adjacency block (windows whose block index is the point's number on the batch axis and zero elsewhere) and
  every parameter array whole (windows whose block index is zero on every axis); the two bias vectors reach it
  through a reshape to one row. The point writes its output block back to slab `t` of the output array, and the
  32 slabs tile that array, so the array ends holding, at (g, a, j), the network on graph `g` at node `a` and
  channel `j`.
-/
import proofs.«145404_j5059471475382_1_alg».proof.Proof.Gen.KernelIdeal.Value
import proofs.«145404_j5059471475382_1_alg».proof.Proof.KernelBody

set_option maxRecDepth 16384

noncomputable section

namespace Cert.KernelIdeal.Final

open Cert.KernelIdeal Cert.KernelIdeal.Gen Cert.KernelIdeal.Value Cert.KernelIdeal.Body
open Idealize.ShloMosaic Idealize.ShloMosaic.TcCoe Idealize.SL.Sem Idealize.ShloMosaic.ValueIdx Cert.Gcn Cert.LibStackOps
open Idealize.ShloMosaic.Pipeline (Dat)

variable (m : (ℓ : Loc nD τ sig) → Buf (Elt Ideal) ℓ) (ρ : Dev nD → PrngReg)

/-- The network's result over the whole batch: at (g, a, j), the network on graph `g`'s features and
    adjacency and the shared parameters, at node `a` and channel `j`. -/
def G (c : Dev nD) : S32x1024x256.Idx → EReal := fun i =>
  net EPS ZERO (matAt (m ((c : Thread nD τ).loc main_arg0)) (i 0)) (matAt (m ((c : Thread nD τ).loc main_arg1)) (i 0)) (mat (m ((c : Thread nD τ).loc main_arg2))) (vec (m ((c : Thread nD τ).loc main_arg3)))
    (matAt (m ((c : Thread nD τ).loc main_arg4))) (rowAt (m ((c : Thread nD τ).loc main_arg5))) (rowAt (m ((c : Thread nD τ).loc main_arg6))) (rowAt (m ((c : Thread nD τ).loc main_arg7)))
    (rowAt (m ((c : Thread nD τ).loc main_arg8))) (rowAt (m ((c : Thread nD τ).loc main_arg9))) (mat (m ((c : Thread nD τ).loc main_arg10))) (vec (m ((c : Thread nD τ).loc main_arg11))) (i 1) (i 2)

/-- The windows' index maps, decided over the 32 grid points: the features, the adjacency and the output move
    with the point along the batch axis; every parameter window stays at its array's origin. -/
theorem idx_batch : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_12.index t (0 : Fin 3) = t.val ∧ win0_12.index t (1 : Fin 3) = 0 ∧ win0_12.index t (2 : Fin 3) = 0 :=
  (by decide +kernel : ∀ t : Fin grid0.N, _)

theorem idx_params : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- The grid point as a graph's number. -/
abbrev gOf (t : Fin cfg0.N) : Fin 32 := ⟨t.val, t.isLt⟩

/-- The feature block at point `t` is graph `t`'s feature matrix. -/
theorem blk0 (c : Dev nD) (t : Fin cfg0.N) :
    matAt (iblk m c 0 t : Vec Ideal S1x1024x128 .f32) 0 = matAt (m ((c : Thread nD τ).loc main_arg0)) (gOf t) := by
  funext a f
  show V m c main_arg0 (((cfg0.win 0).blk t).view.emb (ix3 (0 : Fin 1) a f)) = _
  rw [V_main_arg0]
  refine congrArg _ (funext fun ax => Fin.ext ?_)
  obtain ⟨e0, e1, e2, -⟩ := idx_batch t
  match ax with
  | ⟨0, _⟩ => show win0_0.index t (0 : Fin 3) * 1 + 1 * 0 = t.val; omega
  | ⟨1, _⟩ => show win0_0.index t (1 : Fin 3) * 1024 + 1 * a.val = a.val; omega
  | ⟨2, _⟩ => show win0_0.index t (2 : Fin 3) * 128 + 1 * f.val = f.val; omega

/-- The input bias reaches the kernel reshaped to one row: that row is the bias vector. -/
theorem V_v0 (c : Dev nD) : (V m c main_v0 : S1x512.Idx → EReal) = shapeCast S1x512 (m ((c : Thread nD τ).loc main_arg3)) shapeCasts_S512_S1x512 := by
  dsimp only [Gen.V, Gen.hostOps0]; after_results; rfl

theorem blk3 (c : Dev nD) (t : Fin cfg0.N) :
    rowAt (iblk m c 3 t : Vec Ideal S1x512 .f32) 0 = vec (m ((c : Thread nD τ).loc main_arg3)) := by
  funext j
  show V m c main_v0 (((cfg0.win 3).blk t).view.emb (ix2 (0 : Fin 1) j)) = _
  rw [V_v0]
  obtain ⟨-, ⟨e0, e1⟩, -, -, -, -, -, -, -, -⟩ := idx_params t
  have e : ((cfg0.win 3).blk t).view.emb (ix2 (0 : Fin 1) j) = ix2 (0 : Fin 1) j := by
    funext ax; apply Fin.ext
    match ax with
    | ⟨0, _⟩ => show win0_3.index t (0 : Fin 2) * 1 + 1 * 0 = 0; omega
    | ⟨1, _⟩ => show win0_3.index t (1 : Fin 2) * 512 + 1 * j.val = j.val; omega
  rw [e]
  exact shapeCast_a_1a_apply _ _ 0 j

/-- The adjacency block at point `t` is graph `t`'s adjacency matrix. -/
theorem blk1 (c : Dev nD) (t : Fin cfg0.N) :
    matAt (iblk m c 1 t : Vec Ideal S1x1024x1024 .f32) 0 = matAt (m ((c : Thread nD τ).loc main_arg1)) (gOf t) := by
  funext a f
  show V m c main_arg1 (((cfg0.win 1).blk t).view.emb (ix3 (0 : Fin 1) a f)) = _
  rw [V_main_arg1]
  refine congrArg _ (funext fun ax => Fin.ext ?_)
  obtain ⟨-, -, -, e0, e1, e2, -⟩ := idx_batch t
  match ax with
  | ⟨0, _⟩ => show win0_1.index t (0 : Fin 3) * 1 + 1 * 0 = t.val; omega
  | ⟨1, _⟩ => show win0_1.index t (1 : Fin 3) * 1024 + 1 * a.val = a.val; omega
  | ⟨2, _⟩ => show win0_1.index t (2 : Fin 3) * 1024 + 1 * f.val = f.val; omega

/-- The layer weights' block is the whole stack of the three weight matrices. -/
theorem blk4 (c : Dev nD) (t : Fin cfg0.N) :
    matAt (iblk m c 4 t : Vec Ideal S3x512x512 .f32) = matAt (m ((c : Thread nD τ).loc main_arg4)) := by
  funext i d k
  show V m c main_arg4 (((cfg0.win 4).blk t).view.emb (ix3 i d k)) = _
  rw [V_main_arg4]
  refine congrArg _ (funext fun ax => Fin.ext ?_)
  obtain ⟨-, -, ⟨e0, e1, e2⟩, -, -, -, -, -, -, -⟩ := idx_params t
  match ax with
  | ⟨0, _⟩ => show win0_4.index t (0 : Fin 3) * 3 + 1 * i.val = i.val; omega
  | ⟨1, _⟩ => show win0_4.index t (1 : Fin 3) * 512 + 1 * d.val = d.val; omega
  | ⟨2, _⟩ => show win0_4.index t (2 : Fin 3) * 512 + 1 * k.val = k.val; omega

/-- Window 2's block is its whole parameter matrix. -/
theorem blk2 (c : Dev nD) (t : Fin cfg0.N) :
    mat (iblk m c 2 t : Vec Ideal S128x512 .f32) = mat (m ((c : Thread nD τ).loc main_arg2)) := by
  funext i j
  show V m c main_arg2 (((cfg0.win 2).blk t).view.emb (ix2 i j)) = _
  rw [V_main_arg2]
  refine congrArg _ (funext fun ax => Fin.ext ?_)
  obtain ⟨⟨e0, e1⟩, -, -, -, -, -, -, -, -, -⟩ := idx_params t
  match ax with
  | ⟨0, _⟩ => show win0_2.index t (0 : Fin 2) * 128 + 1 * i.val = i.val; omega
  | ⟨1, _⟩ => show win0_2.index t (1 : Fin 2) * 512 + 1 * j.val = j.val; omega

/-- Window 10's block is its whole parameter matrix. -/
theorem blk10 (c : Dev nD) (t : Fin cfg0.N) :
    mat (iblk m c 10 t : Vec Ideal S512x256 .f32) = mat (m ((c : Thread nD τ).loc main_arg10)) := by
  funext i j
  show V m c main_arg10 (((cfg0.win 10).blk t).view.emb (ix2 i j)) = _
  rw [V_main_arg10]
  refine congrArg _ (funext fun ax => Fin.ext ?_)
  obtain ⟨-, -, -, -, -, -, -, -, ⟨e0, e1⟩, -⟩ := idx_params t
  match ax with
  | ⟨0, _⟩ => show win0_10.index t (0 : Fin 2) * 512 + 1 * i.val = i.val; omega
  | ⟨1, _⟩ => show win0_10.index t (1 : Fin 2) * 256 + 1 * j.val = j.val; omega

/-- Window 5's block is its whole [3, 512] parameter array. -/
theorem blk5 (c : Dev nD) (t : Fin cfg0.N) :
    rowAt (iblk m c 5 t : Vec Ideal S3x512 .f32) = rowAt (m ((c : Thread nD τ).loc main_arg5)) := by
  funext i j
  show V m c main_arg5 (((cfg0.win 5).blk t).view.emb (ix2 i j)) = _
  rw [V_main_arg5]
  refine congrArg _ (funext fun ax => Fin.ext ?_)
  obtain ⟨-, -, -, ⟨e0, e1⟩, -, -, -, -, -, -⟩ := idx_params t
  match ax with
  | ⟨0, _⟩ => show win0_5.index t (0 : Fin 2) * 3 + 1 * i.val = i.val; omega
  | ⟨1, _⟩ => show win0_5.index t (1 : Fin 2) * 512 + 1 * j.val = j.val; omega

/-- Window 6's block is its whole [3, 512] parameter array. -/
theorem blk6 (c : Dev nD) (t : Fin cfg0.N) :
    rowAt (iblk m c 6 t : Vec Ideal S3x512 .f32) = rowAt (m ((c : Thread nD τ).loc main_arg6)) := by
  funext i j
  show V m c main_arg6 (((cfg0.win 6).blk t).view.emb (ix2 i j)) = _
  rw [V_main_arg6]
  refine congrArg _ (funext fun ax => Fin.ext ?_)
  obtain ⟨-, -, -, -, ⟨e0, e1⟩, -, -, -, -, -⟩ := idx_params t
  match ax with
  | ⟨0, _⟩ => show win0_6.index t (0 : Fin 2) * 3 + 1 * i.val = i.val; omega
  | ⟨1, _⟩ => show win0_6.index t (1 : Fin 2) * 512 + 1 * j.val = j.val; omega

/-- Window 7's block is its whole [3, 512] parameter array. -/
theorem blk7 (c : Dev nD) (t : Fin cfg0.N) :
    rowAt (iblk m c 7 t : Vec Ideal S3x512 .f32) = rowAt (m ((c : Thread nD τ).loc main_arg7)) := by
  funext i j
  show V m c main_arg7 (((cfg0.win 7).blk t).view.emb (ix2 i j)) = _
  rw [V_main_arg7]
  refine congrArg _ (funext fun ax => Fin.ext ?_)
  obtain ⟨-, -, -, -, -, ⟨e0, e1⟩, -, -, -, -⟩ := idx_params t
  match ax with
  | ⟨0, _⟩ => show win0_7.index t (0 : Fin 2) * 3 + 1 * i.val = i.val; omega
  | ⟨1, _⟩ => show win0_7.index t (1 : Fin 2) * 512 + 1 * j.val = j.val; omega

/-- Window 8's block is its whole [3, 512] parameter array. -/
theorem blk8 (c : Dev nD) (t : Fin cfg0.N) :
    rowAt (iblk m c 8 t : Vec Ideal S3x512 .f32) = rowAt (m ((c : Thread nD τ).loc main_arg8)) := by
  funext i j
  show V m c main_arg8 (((cfg0.win 8).blk t).view.emb (ix2 i j)) = _
  rw [V_main_arg8]
  refine congrArg _ (funext fun ax => Fin.ext ?_)
  obtain ⟨-, -, -, -, -, -, ⟨e0, e1⟩, -, -, -⟩ := idx_params t
  match ax with
  | ⟨0, _⟩ => show win0_8.index t (0 : Fin 2) * 3 + 1 * i.val = i.val; omega
  | ⟨1, _⟩ => show win0_8.index t (1 : Fin 2) * 512 + 1 * j.val = j.val; omega

/-- Window 9's block is its whole [3, 512] parameter array. -/
theorem blk9 (c : Dev nD) (t : Fin cfg0.N) :
    rowAt (iblk m c 9 t : Vec Ideal S3x512 .f32) = rowAt (m ((c : Thread nD τ).loc main_arg9)) := by
  funext i j
  show V m c main_arg9 (((cfg0.win 9).blk t).view.emb (ix2 i j)) = _
  rw [V_main_arg9]
  refine congrArg _ (funext fun ax => Fin.ext ?_)
  obtain ⟨-, -, -, -, -, -, -, ⟨e0, e1⟩, -, -⟩ := idx_params t
  match ax with
  | ⟨0, _⟩ => show win0_9.index t (0 : Fin 2) * 3 + 1 * i.val = i.val; omega
  | ⟨1, _⟩ => show win0_9.index t (1 : Fin 2) * 512 + 1 * j.val = j.val; omega

/-- The output bias reaches the kernel reshaped to one row: that row is the bias vector. -/
theorem V_v1 (c : Dev nD) : (V m c main_v1 : S1x256.Idx → EReal) = shapeCast S1x256 (m ((c : Thread nD τ).loc main_arg11)) shapeCasts_S256_S1x256 := by
  dsimp only [Gen.V, Gen.hostOps0]; after_results; rfl

theorem blk11 (c : Dev nD) (t : Fin cfg0.N) :
    rowAt (iblk m c 11 t : Vec Ideal S1x256 .f32) 0 = vec (m ((c : Thread nD τ).loc main_arg11)) := by
  funext j
  show V m c main_v1 (((cfg0.win 11).blk t).view.emb (ix2 (0 : Fin 1) j)) = _
  rw [V_v1]
  obtain ⟨-, -, -, -, -, -, -, -, -, ⟨e0, e1⟩⟩ := idx_params t
  have e : ((cfg0.win 11).blk t).view.emb (ix2 (0 : Fin 1) j) = ix2 (0 : Fin 1) j := by
    funext ax; apply Fin.ext
    match ax with
    | ⟨0, _⟩ => show win0_11.index t (0 : Fin 2) * 1 + 1 * 0 = 0; omega
    | ⟨1, _⟩ => show win0_11.index t (1 : Fin 2) * 256 + 1 * j.val = j.val; omega
  rw [e]
  exact shapeCast_a_1a_apply _ _ 0 j

/-! ## From the blocks to the array -/

/-- Where an element of the output block at point `t` sits in the output array: in graph `t`'s slab. -/
theorem emb12 (t : Fin cfg0.N) (a : Fin 1024) (j : Fin 256) :
    ((cfg0.win 12).blk t).view.emb (ix3 (0 : Fin 1) a j) = ix3 (gOf t) a j := by
  funext ax; apply Fin.ext
  obtain ⟨-, -, -, -, -, -, e0, e1, e2⟩ := idx_batch t
  match ax with
  | ⟨0, _⟩ => show win0_12.index t (0 : Fin 3) * 1 + 1 * 0 = t.val; omega
  | ⟨1, _⟩ => show win0_12.index t (1 : Fin 3) * 1024 + 1 * a.val = a.val; omega
  | ⟨2, _⟩ => show win0_12.index t (2 : Fin 3) * 256 + 1 * j.val = j.val; omega

/-- What point `t` writes back is block `t` of the network's result: the body's output block is the network
    on the point's blocks, and those blocks are graph `t`'s features and adjacency and the whole parameters. -/
theorem flushed_eq (c : Dev nD) (t : Fin cfg0.N) :
    (dats m 0 c).flushed 12 t = ((cfg0.win 12).blk t).view.read (Elt Ideal) (G m c) := by
  rw [flushed12_A]
  funext y
  obtain ⟨u, a, j, rfl⟩ : ∃ (u : Fin 1) (a : Fin 1024) (j : Fin 256), y = ix3 u a j := ⟨y 0, y 1, y 2, eq_ix3 y⟩
  obtain rfl : u = 0 := Subsingleton.elim _ _
  show out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 (0 : Fin 1) a j) = G m c (((cfg0.win 12).blk t).view.emb (ix3 (0 : Fin 1) a j))
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) a j).trans ?_
  rw [emb12, blk0, blk1, blk2, blk3, blk4, blk5, blk6, blk7, blk8, blk9, blk10, blk11]
  rfl

/-- An index of the output array lies in point `t`'s block iff each coordinate is in the block's range. -/
theorem mem_blk12 (t : Fin cfg0.N) (i : S32x1024x256.Idx) :
    i ∈ ((cfg0.win 12).blk t).view.set ↔ ∀ a : Fin 3, win0_12.index t a * S1x1024x256.size a ≤ (i a).val ∧ (i a).val < win0_12.index t a * S1x1024x256.size a + S1x1024x256.size a := by
  show i ∈ ((View.whole main_v2).slice (win0_12.rect t)).set ↔ _
  rw [View.set_slice_whole, Rect.mem_set_unit]
  exact Iff.rfl

/-- Every index of the output array is in the block of the point that handles its graph. -/
theorem cover12 (i : S32x1024x256.Idx) :
    ∃ t : Fin cfg0.N, (cfg0.win 12).flush t = true ∧ i ∈ ((cfg0.win 12).blk t).view.set := by
  have h0 : (i 0).val < 32 := (i 0).isLt
  have h1 : (i 1).val < 1024 := (i 1).isLt
  have h2 : (i 2).val < 256 := (i 2).isLt
  refine ⟨⟨(i 0).val, h0⟩, flush0_12 _, ?_⟩
  rw [mem_blk12]
  obtain ⟨-, -, -, -, -, -, e0', e1, e2⟩ := idx_batch ⟨(i 0).val, h0⟩
  have e0 : win0_12.index ⟨(i 0).val, h0⟩ (0 : Fin 3) = (i 0).val := e0'
  intro a
  match a with
  | ⟨0, _⟩ => show win0_12.index _ (0 : Fin 3) * 1 ≤ (i 0).val ∧ (i 0).val < win0_12.index _ (0 : Fin 3) * 1 + 1; rw [e0]; omega
  | ⟨1, _⟩ => show win0_12.index _ (1 : Fin 3) * 1024 ≤ (i 1).val ∧ (i 1).val < win0_12.index _ (1 : Fin 3) * 1024 + 1024; rw [e1]; omega
  | ⟨2, _⟩ => show win0_12.index _ (2 : Fin 3) * 256 ≤ (i 2).val ∧ (i 2).val < win0_12.index _ (2 : Fin 3) * 256 + 256; rw [e2]; omega

/-- The output array after the run is the network's result over the whole batch. -/
theorem final12 (c : Dev nD) : (dats m 0 c).arrAt 12 cfg0.N = G m c :=
  (dats m 0 c).arrAt_eq_of_cover 12 (G m c) (fun t _ => flushed_eq m c t) cover12

/-- The kernel's run with its output array named as the network's result over the batch, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final12 m c), (h c).2⟩) (run_blocks m ρ)

end Cert.KernelIdeal.Final

end
-- ==== Proof.RefValue.lean ====
/-
  The reference network's result, read at an index, as the plain mathematics of one graph.

  The reference works on the whole batch at once: arrays [32, 1024, ·] whose leading axis counts the graphs.
  Its result is one long composition of array operations. Here that composition is first folded into its
  three repeated pieces, written in the reference's own operations:
    * a vector of channels laid along the last axis of the stack (through a [1, 1, n] array);
    * an affine projection: the stack times ONE matrix, plus a laid-out bias vector;
    * one layer: the stack of adjacency matrices times the stack of transformed features, graph by graph,
      plus the laid-out bias; the maximum with the zero splat; minus the laid-out running mean; times the
      laid-out reciprocal square root of (running variance + the splat of the small constant); times the
      laid-out scale; plus the laid-out shift. The layer's matrix and its five vectors are members and rows
      cut out of the stacked parameters.
  The folding is an equality of terms (both sides unfold to the same text). Then each piece is read at an
  index (g, a, j): a product of stacks is the sum over the contracted coordinate of the products of graph
  g's entries, a laid-out vector reads its entry j, a scalar splat reads its word's value, and every
  pointwise operation acts entry by entry. So each piece, restricted to graph g, is the matching matrix
  function (the product with a bias row, the layer), and the composition restricted to graph g is the
  network on that graph. No sum is reordered and no arithmetic law is used: the two sides agree term by term.
-/
import proofs.«145404_j5059471475382_1_alg».proof.Proof.Gen.ReferenceIdeal.Run
import proofs.«145404_j5059471475382_1_alg».proof.Proof.Spec
import proofs.«145404_j5059471475382_1_alg».proof.Proof.LibStackOps
import Idealize.ShloMosaic.Lib.StackMember
import Idealize.ShloMosaic.Lib.IdealHost
import Idealize.ShloMosaic.Lib.ValueIdx
import Idealize.ShloMosaic.PureOps.Ideal

noncomputable section

namespace Cert.ReferenceIdeal.RefValue

open Idealize.ShloMosaic Idealize.ShloMosaic.TcCoe Idealize.SL.Sem Idealize.ShloMosaic.ValueIdx Cert.Gcn
open Cert.ReferenceIdeal Cert.ReferenceIdeal.Gen

/-! ## The reference's repeated pieces, in its own operations -/

/-- A vector of 512 channels laid along the last axis of the [32, 1024, 512] stack. -/
def lay (v : FVec Ideal S512 .f32) : FVec Ideal S32x1024x512 .f32 :=
  broadcastInDim S32x1024x512 ![0, 1, 2] bcast_S1x1x512_S32x1024x512_0_1_2 (broadcastInDim S1x1x512 ![2] bcast_S512_S1x1x512_2 v)

/-- A vector of 256 channels laid along the last axis of the [32, 1024, 256] stack. -/
def layOut (v : FVec Ideal S256 .f32) : FVec Ideal S32x1024x256 .f32 :=
  broadcastInDim S32x1024x256 ![0, 1, 2] bcast_S1x1x256_S32x1024x256_0_1_2 (broadcastInDim S1x1x256 ![2] bcast_S256_S1x1x256_2 v)

/-- The row of a [3, 512] matrix at the offsets `off`, as a vector. -/
def rowOf (off : Fin 2 → Nat) (hs : S3x512.Slices off S1x512) (P : FVec Ideal S3x512 .f32) : FVec Ideal S512 .f32 :=
  shapeCast _ (extractStridedSlice S1x512 off P hs) shapeCasts_S1x512_S512

/-- The matrix of a [3, 512, 512] stack at the offsets `off`. -/
def memberOf (off : Fin 3 → Nat) (hs : S3x512x512.Slices off S1x512x512) (W : FVec Ideal S3x512x512 .f32) :
    FVec Ideal S512x512 .f32 :=
  shapeCast _ (extractStridedSlice S1x512x512 off W hs) shapeCasts_S1x512x512_S512x512

/-- The input projection: every graph's features times one matrix, plus the bias row. -/
def projIn (X : FVec Ideal S32x1024x128 .f32) (W : FVec Ideal S128x512 .f32) (b : FVec Ideal S512 .f32) :
    FVec Ideal S32x1024x512 .f32 :=
  addf (Host.dotGeneral dot_S32x1024x128_S128x512_S32x1024x512_2_0_01_1_n_n none X W) (lay b)

/-- The output projection. -/
def projOut (H : FVec Ideal S32x1024x512 .f32) (W : FVec Ideal S512x256 .f32) (b : FVec Ideal S256 .f32) :
    FVec Ideal S32x1024x256 .f32 :=
  addf (Host.dotGeneral dot_S32x1024x512_S512x256_S32x1024x256_2_0_01_1_n_n none H W) (layOut b)

/-- One layer over the whole stack: aggregate the transformed features graph by graph, add the bias row,
    rectify against the zero splat, normalise with the running statistics. -/
def refLayer (adj : FVec Ideal S32x1024x1024 .f32) (H : FVec Ideal S32x1024x512 .f32) (W : FVec Ideal S512x512 .f32)
    (bg rm rv ga be : FVec Ideal S512 .f32) : FVec Ideal S32x1024x512 .f32 :=
  addf (mulf (mulf (subf (maximumf (addf (Host.dotGeneral dot_S32x1024x1024_S32x1024x512_S32x1024x512_2_1_1_2_0_0 none adj (Host.dotGeneral dot_S32x1024x512_S512x512_S32x1024x512_2_0_01_1_n_n none H W)) (lay bg)) (broadcastInDim S32x1024x512 ![] bcast_S_S32x1024x512 (constant S_ .f32 0x00000000#32))) (lay rm)) (lay (Host.rsqrt (addf rv (broadcastInDim S512 ![] bcast_S_S512 (constant S_ .f32 0x3727C5AC#32)))))) (lay ga)) (lay be)

/-- The reference's result is the composition of these pieces over the argument arrays. -/
theorem res_eq (m : (ℓ : Loc nD τ sig) → Buf (Elt Ideal) ℓ) (c : Dev nD) :
    Cert.ReferenceIdeal.Value.res_main_v106 (F := Ideal) m c
      = projOut
          (refLayer (m ((c.tc : Thread nD τ).loc main_arg1))
            (refLayer (m ((c.tc : Thread nD τ).loc main_arg1))
              (refLayer (m ((c.tc : Thread nD τ).loc main_arg1))
                (projIn (m ((c.tc : Thread nD τ).loc main_arg0)) (m ((c.tc : Thread nD τ).loc main_arg2)) (m ((c.tc : Thread nD τ).loc main_arg3)))
                (memberOf ![0, 0, 0] slices_S3x512x512_S1x512x512_0_0_0 (m ((c.tc : Thread nD τ).loc main_arg4)))
                (rowOf ![0, 0] slices_S3x512_S1x512_0_0 (m ((c.tc : Thread nD τ).loc main_arg5)))
                (rowOf ![0, 0] slices_S3x512_S1x512_0_0 (m ((c.tc : Thread nD τ).loc main_arg8)))
                (rowOf ![0, 0] slices_S3x512_S1x512_0_0 (m ((c.tc : Thread nD τ).loc main_arg9)))
                (rowOf ![0, 0] slices_S3x512_S1x512_0_0 (m ((c.tc : Thread nD τ).loc main_arg6)))
                (rowOf ![0, 0] slices_S3x512_S1x512_0_0 (m ((c.tc : Thread nD τ).loc main_arg7))))
              (memberOf ![1, 0, 0] slices_S3x512x512_S1x512x512_1_0_0 (m ((c.tc : Thread nD τ).loc main_arg4)))
              (rowOf ![1, 0] slices_S3x512_S1x512_1_0 (m ((c.tc : Thread nD τ).loc main_arg5)))
              (rowOf ![1, 0] slices_S3x512_S1x512_1_0 (m ((c.tc : Thread nD τ).loc main_arg8)))
              (rowOf ![1, 0] slices_S3x512_S1x512_1_0 (m ((c.tc : Thread nD τ).loc main_arg9)))
              (rowOf ![1, 0] slices_S3x512_S1x512_1_0 (m ((c.tc : Thread nD τ).loc main_arg6)))
              (rowOf ![1, 0] slices_S3x512_S1x512_1_0 (m ((c.tc : Thread nD τ).loc main_arg7))))
            (memberOf ![2, 0, 0] slices_S3x512x512_S1x512x512_2_0_0 (m ((c.tc : Thread nD τ).loc main_arg4)))
            (rowOf ![2, 0] slices_S3x512_S1x512_2_0 (m ((c.tc : Thread nD τ).loc main_arg5)))
            (rowOf ![2, 0] slices_S3x512_S1x512_2_0 (m ((c.tc : Thread nD τ).loc main_arg8)))
            (rowOf ![2, 0] slices_S3x512_S1x512_2_0 (m ((c.tc : Thread nD τ).loc main_arg9)))
            (rowOf ![2, 0] slices_S3x512_S1x512_2_0 (m ((c.tc : Thread nD τ).loc main_arg6)))
            (rowOf ![2, 0] slices_S3x512_S1x512_2_0 (m ((c.tc : Thread nD τ).loc main_arg7))))
          (m ((c.tc : Thread nD τ).loc main_arg10)) (m ((c.tc : Thread nD τ).loc main_arg11)) := by
  unfold Cert.ReferenceIdeal.Value.res_main_v106 projOut refLayer projIn memberOf rowOf lay layOut
  rfl

/-! ## The pieces read at an index -/

theorem lay_apply (v : FVec Ideal S512 .f32) (g : Fin 32) (a : Fin 1024) (b : Fin 512) :
    lay v (ix3 g a b) = v (ix1 b) :=
  LibStackOps.broadcastInDim_lastAxis_apply v _ _ g a b

theorem layOut_apply (v : FVec Ideal S256 .f32) (g : Fin 32) (a : Fin 1024) (b : Fin 256) :
    layOut v (ix3 g a b) = v (ix1 b) :=
  LibStackOps.broadcastInDim_lastAxis_apply v _ _ g a b

/-- Row `i` cut out of a [3, 512] matrix, as a vector. -/
theorem rowOf_vec (i : Fin 3) (hs : S3x512.Slices ![i.val, 0] S1x512) (P : FVec Ideal S3x512 .f32) :
    vec (rowOf ![i.val, 0] hs P) = rowAt P i := by
  funext b; exact LibStackOps.row_apply i P hs shapeCasts_S1x512_S512 b

/-- Matrix `i` cut out of a [3, 512, 512] stack, as a matrix. -/
theorem memberOf_mat (i : Fin 3) (hs : S3x512x512.Slices ![i.val, 0, 0] S1x512x512) (W : FVec Ideal S3x512x512 .f32) :
    mat (memberOf ![i.val, 0, 0] hs W) = matAt W i := by
  funext d b; exact LibStackOps.member_apply i W hs shapeCasts_S1x512x512_S512x512 d b

/-- The input projection, one graph at a time. -/
theorem projIn_mat (X : FVec Ideal S32x1024x128 .f32) (W : FVec Ideal S128x512 .f32) (b : FVec Ideal S512 .f32) (g : Fin 32) :
    matAt (projIn X W b) g = addRow (prod (matAt X g) (mat W)) (vec b) := by
  funext a j
  show projIn X W b (ix3 g a j) = (∑ c : Fin 128, X (ix3 g a c) * W (ix2 c j)) + b (ix1 j)
  unfold projIn
  rw [addf_apply, lay_apply]
  exact congrArg (· + b (ix1 j)) (LibStackOps.dotGeneral_stack_plain_apply _ none X W g a j)

/-- The output projection, one graph at a time. -/
theorem projOut_mat (H : FVec Ideal S32x1024x512 .f32) (W : FVec Ideal S512x256 .f32) (b : FVec Ideal S256 .f32) (g : Fin 32) :
    matAt (projOut H W b) g = addRow (prod (matAt H g) (mat W)) (vec b) := by
  funext a j
  show projOut H W b (ix3 g a j) = (∑ c : Fin 512, H (ix3 g a c) * W (ix2 c j)) + b (ix1 j)
  unfold projOut
  rw [addf_apply, layOut_apply]
  exact congrArg (· + b (ix1 j)) (LibStackOps.dotGeneral_stack_plain_apply _ none H W g a j)

/-- One layer, one graph at a time: the stack-by-stack aggregation of the transformed features is the
    graph's own double product, the zero splat and the splat of the small constant read their words'
    values, and the reciprocal square root is taken entry by entry. -/
theorem refLayer_mat (adj : FVec Ideal S32x1024x1024 .f32) (H : FVec Ideal S32x1024x512 .f32) (W : FVec Ideal S512x512 .f32)
    (bg rm rv ga be : FVec Ideal S512 .f32) (g : Fin 32) :
    matAt (refLayer adj H W bg rm rv ga be) g
      = layer (Ideal.ofBits .f32 0x3727C5AC#32) (Ideal.ofBits .f32 0x00000000#32) (matAt adj g) (matAt H g) (mat W)
          (vec bg) (vec rm) (vec rv) (vec ga) (vec be) := by
  funext a j
  have hXW : ∀ c : Fin 1024,
      Host.dotGeneral dot_S32x1024x512_S512x512_S32x1024x512_2_0_01_1_n_n none H W (ix3 g c j)
        = ∑ d : Fin 512, H (ix3 g c d) * W (ix2 d j) :=
    fun c => LibStackOps.dotGeneral_stack_plain_apply _ none H W g c j
  have hA : Host.dotGeneral dot_S32x1024x1024_S32x1024x512_S32x1024x512_2_1_1_2_0_0 none adj
        (Host.dotGeneral dot_S32x1024x512_S512x512_S32x1024x512_2_0_01_1_n_n none H W) (ix3 g a j)
      = ∑ c : Fin 1024, adj (ix3 g a c) * ∑ d : Fin 512, H (ix3 g c d) * W (ix2 d j) := by
    refine (StackMember.dotGeneral_stack_apply _ none adj _ g a j).trans ?_
    exact Finset.sum_congr rfl fun c _ => by rw [hXW c]
  show refLayer adj H W bg rm rv ga be (ix3 g a j)
      = ((max ((∑ c : Fin 1024, adj (ix3 g a c) * ∑ d : Fin 512, H (ix3 g c d) * W (ix2 d j)) + bg (ix1 j))
              (Ideal.ofBits .f32 0x00000000#32) - rm (ix1 j))
            * Ideal.rsqrt (rv (ix1 j) + Ideal.ofBits .f32 0x3727C5AC#32)) * ga (ix1 j) + be (ix1 j)
  unfold refLayer
  rw [addf_apply, mulf_apply, mulf_apply, subf_apply, maximumf_apply, addf_apply, hA, lay_apply, lay_apply, lay_apply,
    lay_apply, lay_apply, broadcastInDim_scalar_apply, constant_apply]
  rfl

/-! ## The whole network -/

theorem ref_apply (m : (ℓ : Loc nD τ sig) → Buf (Elt Ideal) ℓ) (c : Dev nD) (g : Fin 32) (a : Fin 1024) (j : Fin 256) :
    Cert.ReferenceIdeal.Value.res_main_v106 (F := Ideal) m c (ix3 g a j)
      = net (Ideal.ofBits .f32 0x3727C5AC#32) (Ideal.ofBits .f32 0x00000000#32)
          (matAt (m ((c.tc : Thread nD τ).loc main_arg0)) g) (matAt (m ((c.tc : Thread nD τ).loc main_arg1)) g)
          (mat (m ((c.tc : Thread nD τ).loc main_arg2))) (vec (m ((c.tc : Thread nD τ).loc main_arg3)))
          (matAt (m ((c.tc : Thread nD τ).loc main_arg4))) (rowAt (m ((c.tc : Thread nD τ).loc main_arg5)))
          (rowAt (m ((c.tc : Thread nD τ).loc main_arg6))) (rowAt (m ((c.tc : Thread nD τ).loc main_arg7)))
          (rowAt (m ((c.tc : Thread nD τ).loc main_arg8))) (rowAt (m ((c.tc : Thread nD τ).loc main_arg9)))
          (mat (m ((c.tc : Thread nD τ).loc main_arg10))) (vec (m ((c.tc : Thread nD τ).loc main_arg11))) a j := by
  have r0 : ∀ P : FVec Ideal S3x512 .f32, vec (rowOf ![0, 0] slices_S3x512_S1x512_0_0 P) = rowAt P 0 :=
    fun P => rowOf_vec 0 _ P
  have r1 : ∀ P : FVec Ideal S3x512 .f32, vec (rowOf ![1, 0] slices_S3x512_S1x512_1_0 P) = rowAt P 1 :=
    fun P => rowOf_vec 1 _ P
  have r2 : ∀ P : FVec Ideal S3x512 .f32, vec (rowOf ![2, 0] slices_S3x512_S1x512_2_0 P) = rowAt P 2 :=
    fun P => rowOf_vec 2 _ P
  have w0 : ∀ W : FVec Ideal S3x512x512 .f32,
      mat (memberOf ![0, 0, 0] slices_S3x512x512_S1x512x512_0_0_0 W) = matAt W 0 := fun W => memberOf_mat 0 _ W
  have w1 : ∀ W : FVec Ideal S3x512x512 .f32,
      mat (memberOf ![1, 0, 0] slices_S3x512x512_S1x512x512_1_0_0 W) = matAt W 1 := fun W => memberOf_mat 1 _ W
  have w2 : ∀ W : FVec Ideal S3x512x512 .f32,
      mat (memberOf ![2, 0, 0] slices_S3x512x512_S1x512x512_2_0_0 W) = matAt W 2 := fun W => memberOf_mat 2 _ W
  refine (congrFun (res_eq m c) (ix3 g a j)).trans ?_
  show matAt (projOut _ _ _) g a j = _
  rw [projOut_mat, refLayer_mat, refLayer_mat, refLayer_mat, projIn_mat, r0, r0, r0, r0, r0, r1, r1, r1, r1, r1,
    r2, r2, r2, r2, r2, w0, w1, w2]
  rfl

end Cert.ReferenceIdeal.RefValue

end
-- ==== Proof.lean ====
/-
  The certificate of a three-layer graph-convolution network run on a batch of 32 graphs of 1024 nodes.

  Both programs compute, for each graph of the batch, the same network on plain matrices (Proof/Spec.lean):
  an affine input projection of the node features (128 to 512 channels), three layers
      Y  = Adj · (H · W) + bias,      H' = ((max(Y, 0) − mean) · rsqrt(var + ε)) · γ + β,
  and an affine output projection (512 to 256 channels).

  The kernel runs once per graph: a grid point is handed the graph's feature and adjacency blocks and the
  parameter arrays whole, keeps the running features in a scratch buffer, and writes the graph's slab of the
  output array. Its body's arithmetic, cut at each store of the scratch buffer, is that network stage by
  stage (Proof/KernelPay.lean, Proof/KernelBody.lean), and the 32 slabs tile the output array
  (Proof/KernelFinal.lean). The reference works on the whole batch at once; restricted to one graph each of its
  array operations is the matching matrix operation (Proof/RefValue.lean). At the ideal values a change of float
  format is the identity and a product accumulated into a zero splat is the plain sum of products, both programs
  carry the same words for ε and for the rectifier's zero, and they associate the normalisation alike: the two
  results agree term by term, so no arithmetic law of the extended reals and no finiteness of the inputs is used.
  The idealization rewrote no operation of the kernel, so what it preserves is stated as `True`.
-/
import proofs.«145404_j5059471475382_1_alg».proof.Defs
import proofs.«145404_j5059471475382_1_alg».proof.Proof.Gen.Kernel
import proofs.«145404_j5059471475382_1_alg».proof.Proof.Gen.Kernel.Skeleton
import proofs.«145404_j5059471475382_1_alg».proof.Proof.Gen.Kernel.Launch
import proofs.«145404_j5059471475382_1_alg».proof.Proof.Gen.Kernel.Points
import proofs.«145404_j5059471475382_1_alg».proof.Proof.Gen.Kernel.Frame
import proofs.«145404_j5059471475382_1_alg».proof.Proof.Gen.KernelIdeal
import proofs.«145404_j5059471475382_1_alg».proof.Proof.Gen.KernelIdeal.Skeleton
import proofs.«145404_j5059471475382_1_alg».proof.Proof.Gen.KernelIdeal.Launch
import proofs.«145404_j5059471475382_1_alg».proof.Proof.Gen.KernelIdeal.Points
import proofs.«145404_j5059471475382_1_alg».proof.Proof.Gen.KernelIdeal.Frame
import proofs.«145404_j5059471475382_1_alg».proof.Proof.Gen.ReferenceIdeal
import proofs.«145404_j5059471475382_1_alg».proof.Proof.Gen.Pre_finite_inputs
import proofs.«145404_j5059471475382_1_alg».proof.Proof.Gen.KernelIdeal.Value
import proofs.«145404_j5059471475382_1_alg».proof.Proof.Gen.ReferenceIdeal.Run
import proofs.«145404_j5059471475382_1_alg».proof.Proof.KernelFinal
import proofs.«145404_j5059471475382_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_k : Cert.frame_Kernel := fun m ρ _ => Cert.Kernel.Gen.frame m ρ

/-- So does its reading at the ideal values. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the twelve arguments the kernel's output array and the reference's result are,
    at every (g, a, j), the network on graph `g` at node `a` and channel `j`. -/
theorem algebraic : Cert.algebraic_KernelIdeal_ReferenceIdeal := by
  intro m ρ m' ρ' _ hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  funext i
  obtain ⟨g, a, j, rfl⟩ : ∃ (g : Fin 32) (a : Fin 1024) (j : Fin 256), i = ix3 g a j := ⟨i 0, i 1, i 2, eq_ix3 i⟩
  obtain ⟨h0, h1, h2, h3, h4, h5, h6, h7, h8, h9, h10, h11⟩ := hagree c
  rw [Cert.ReferenceIdeal.RefValue.ref_apply, h0, h1, h2, h3, h4, h5, h6, h7, h8, h9, h10, h11]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
